-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x1024 .f32) (main_arg1 : FVec F S8x1024x1024 .f32) (main_arg2 : FVec F S8x1024x1024 .f32) (main_arg3 : FVec F S1024x1024 .f32) (main_arg4 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024, .f32⟩
  | .hbm, ⟨5, _⟩ => ⟨S8x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .f32⟩
  | .local _ .vmem, ⟨7, _⟩ => ⟨S1024, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_19 : BitVec 32 := 0#32
  let c256_i32 : BitVec 32 := 256#32
  let v34 : BitVec 32 := Scalar.muli c0_i32_19 c256_i32
  v34
def k0_off1 (c0_i32_19 : BitVec 32) : Fin 3 → Nat :=
  let c0_20 : Index := 0#32
  let c256_i32 : BitVec 32 := 256#32
  let v34 : BitVec 32 := Scalar.muli c0_i32_19 c256_i32
  let v35 : BitVec 32 := v34
  let v36 : Index := Scalar.indexCast v35
  let c0_21 : Index := 0#32
  ![0, v36.toNat, 0]
def k0_off2 (c0_i32_19 : BitVec 32) : Fin 2 → Nat :=
  let c256_i32 : BitVec 32 := 256#32
  let v34 : BitVec 32 := Scalar.muli c0_i32_19 c256_i32
  let v35 : BitVec 32 := v34
  let v45 : Index := Scalar.indexCast v35
  let c0_23 : Index := 0#32
  ![v45.toNat, 0]
def k0_mult2 : BitVec 32 :=
  let c1_i32 : BitVec 32 := 1#32
  let c256_i32_27 : BitVec 32 := 256#32
  let v57 : BitVec 32 := Scalar.muli c1_i32 c256_i32_27
  v57
def k0_mult3 : BitVec 32 :=
  let c2_i32 : BitVec 32 := 2#32
  let c256_i32_35 : BitVec 32 := 256#32
  let v80 : BitVec 32 := Scalar.muli c2_i32 c256_i32_35
  v80
def k0_mult4 : BitVec 32 :=
  let c3_i32 : BitVec 32 := 3#32
  let c256_i32_43 : BitVec 32 := 256#32
  let v103 : BitVec 32 := Scalar.muli c3_i32 c256_i32_43
  v103
def k0_mult5 (i : grid0.Coords) : BitVec 32 :=
  let arg1 : BitVec 32 := BitVec.ofNat 32 (i 1).val
  let c512_i32 : BitVec 32 := 512#32
  let v3 : BitVec 32 := Scalar.muli arg1 c512_i32
  v3
def k0_off3 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024_S1024_0 : ∀ a, (![0] : Fin 1 → Nat) a + S1024.size a ≤ S1024.size a
  h_S1024 : 0 < S1024.numel
  h_S1x256x1024 : 0 < S1x256x1024.numel
  shapeCasts_S1x256x1024_S256x1024 : S1x256x1024.ShapeCasts S256x1024
  shapeCasts_S1024_S1x1024 : S1024.ShapeCasts S1x1024
  broadcasts_S1x1024_S256x1024 : S1x1024.Broadcasts S256x1024
  h_S256x1024 : 0 < S256x1024.numel
  shapeCasts_S256x1024_S256x1024 : S256x1024.ShapeCasts S256x1024
  h_S512x1024 : 0 < S512x1024.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S256x1024_S1024x1024_S256x1024_1_0_0_1_n_n_wf : DotDims.WF S256x1024 S1024x1024 S256x1024 [1] [0] [0] [1] [] []
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 4), ∀ a, (k0_off1 (BitVec.ofNat 32 r.val)) a + S1x256x1024.size a ≤ S1x1024x1024.size a
  k0_off2_inb : ∀ i : grid0.Coords, ∀ (k0_h1 : k0_cond1 i = 1#1), ∀ (r : Fin 4), ∀ a, (k0_off2 (BitVec.ofNat 32 r.val)) a + S256x1024.size a ≤ S1024x1024.size a
  k0_off2_packedbf16 : ∀ i : grid0.Coords, ∀ (k0_h1 : k0_cond1 i = 1#1), ∀ (r : Fin 4), (Rect.unit (s := S1024x1024) (k0_off2 (BitVec.ofNat 32 r.val)) S256x1024.size (k0_off2_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, 512 ∣ (k0_mult5 i).toNat
  k0_off3_inb : ∀ i : grid0.Coords, ∀ a, (k0_off3 i) a + S512x1024.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x1024x1024.size a
  hwx0_2 : ∀ i : grid0.Coords, EltTy.bits .f32 = 32 ∨ (Rect.block (s := S8x1024x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x1024x1024.size a
  hwx0_5 : ∀ i : grid0.Coords, EltTy.bits .f32 = 32 ∨ (Rect.block (s := S8x1024x1024) S1x512x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S1024x1024, .f32⟩
  | .hbm, ⟨4, _⟩ => ⟨S1024, .f32⟩
  | .hbm, ⟨5, _⟩ => ⟨S8x1024x1024, .f32⟩
  | .hbm, ⟨6, _⟩ => ⟨S1x1x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S_, .f32⟩
  | .hbm, ⟨11, _⟩ => ⟨S8x1024x1024, .f32⟩
  | .hbm, ⟨12, _⟩ => ⟨S8x1024x1024, .f32⟩
  | .hbm, ⟨13, _⟩ => ⟨S8x1024x1024, .f32⟩
  | .hbm, ⟨14, _⟩ => ⟨S_, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024x1, .f32⟩
  | .hbm, ⟨20, _⟩ => ⟨S8x1024x1024, .f32⟩
  | .hbm, ⟨21, _⟩ => ⟨S8x1024x1024, .f32⟩
  | .hbm, ⟨22, _⟩ => ⟨S8x1024x1024, .f32⟩
  | .hbm, ⟨23, _⟩ => ⟨S_, .f32⟩
  | .hbm, ⟨24, _⟩ => ⟨S8x1024, .f32⟩
  | .hbm, ⟨25, _⟩ => ⟨S8x1024x1, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_0_01_1_n_n_wf : DotDims.WF S8x1024x1024 S1024x1024 S8x1024x1024 [2] [0] [0, 1] [1] [] []
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.AttnSpec.lean ====
/-
  Masked softmax attention over one batch of rows, on the extended reals: the function both programs compute.

  For a batch `b`, with `x, y : [8, 1024, 1024]`, a mask of the same shape, `W : [1024, 1024]` and a bias
  `[1024]`:
    proj[b, d, t]  = Σ_e y[b, d, e] · W[e, t] + bias[t]                       (the projected keys)
    score[b, s, t] = Σ_d x[b, s, d] · proj[b, d, t] + mask[b, s, t] · c       (`c` the mask's finite factor)
    out[b, s, d]   = Σ_t softmax_t(score[b, s, ·]) · x[b, t, d]
  The softmax of a row `a` is written with the row's maximum `m` (the fold of `max` from `-∞`), the weights
  `exp (a t - m)` and their sum `l`; one program divides each weight by `l`, the other multiplies it by `1 / l`:
  the two forms `rowOutDiv` and `rowOutMul` below.  Everything is stated row by row over plain functions of
  `Fin 1024`, and only then over the arrays.
-/
import Idealize.ShloMosaic.PureOps.Ideal
import Idealize.ShloMosaic.Lib.ValueIdx

noncomputable section

namespace Cert.Attn

open Idealize.ShloMosaic Idealize.ShloMosaic.ValueIdx

/-- The arrays' shapes. -/
abbrev SB : Shape := ⟨3, ![8, 1024, 1024]⟩
abbrev SM : Shape := ⟨2, ![1024, 1024]⟩
abbrev SV : Shape := ⟨1, ![1024]⟩

/-- An extended real that is a real number. -/
def IsFin (v : EReal) : Prop := ∃ r : ℝ, v = (r : EReal)

/-- The mask's factor (the single-precision value of `-1e9`), and the maximum's starting value (`-∞`). -/
def negBig : EReal := Ideal.ofBits .f32 0xCE6E6B28#32
def negInf : EReal := Ideal.ofBits .f32 0xFF800000#32

/-! ## One query row -/

/-- The scores of one query row `q` against projected keys `P`, with the row's mask entries added in. -/
def rowScore (q : Fin 1024 → EReal) (P : Fin 1024 → Fin 1024 → EReal) (mrow : Fin 1024 → EReal) (t : Fin 1024) : EReal :=
  (∑ d : Fin 1024, q d * P d t) + mrow t * negBig

/-- The row's maximum: the fold of `max` over its entries, from `-∞`. -/
def rowMax (a : Fin 1024 → EReal) : EReal := (Finset.univ : Finset (Fin 1024)).fold max negInf a

/-- The unnormalised weights, and their sum. -/
def rowW (a : Fin 1024 → EReal) (t : Fin 1024) : EReal := Ideal.exp (a t - rowMax a)
def rowDen (a : Fin 1024 → EReal) : EReal := ∑ t : Fin 1024, rowW a t

/-- The row's output against values `X`, each weight DIVIDED by the sum … -/
def rowOutDiv (a : Fin 1024 → EReal) (X : Fin 1024 → Fin 1024 → EReal) (d : Fin 1024) : EReal :=
  ∑ t : Fin 1024, Ideal.div (rowW a t) (rowDen a) * X t d

/-- … and each weight MULTIPLIED by the sum's reciprocal. -/
def rowOutMul (a : Fin 1024 → EReal) (X : Fin 1024 → Fin 1024 → EReal) (d : Fin 1024) : EReal :=
  ∑ t : Fin 1024, (rowW a t * Ideal.div 1 (rowDen a)) * X t d

/-! ## Over the arrays -/

section Arrays

variable (x y mk : SB.Idx → EReal) (W : SM.Idx → EReal) (bias : SV.Idx → EReal)

/-- The projected keys of batch `b`. -/
def proj (b : Fin 8) (d t : Fin 1024) : EReal :=
  (∑ e : Fin 1024, y (ix3 b d e) * W (ix2 e t)) + bias (ix1 t)

/-- The scores of query row `s` of batch `b`. -/
def score (b : Fin 8) (s : Fin 1024) : Fin 1024 → EReal :=
  rowScore (fun d => x (ix3 b s d)) (fun d t => proj y W bias b d t) (fun t => mk (ix3 b s t))

/-- The attention output, in the dividing form and in the multiplying form. -/
def attnDiv (b : Fin 8) (s d : Fin 1024) : EReal := rowOutDiv (score x y mk W bias b s) (fun t d => x (ix3 b t d)) d
def attnMul (b : Fin 8) (s d : Fin 1024) : EReal := rowOutMul (score x y mk W bias b s) (fun t d => x (ix3 b t d)) d

/-- As whole arrays. -/
def outDiv : SB.Idx → EReal := fun i => attnDiv x y mk W bias (i 0) (i 1) (i 2)
def outMul : SB.Idx → EReal := fun i => attnMul x y mk W bias (i 0) (i 1) (i 2)

theorem outDiv_ix3 (b : Fin 8) (s d : Fin 1024) : outDiv x y mk W bias (ix3 b s d) = attnDiv x y mk W bias b s d := rfl
theorem outMul_ix3 (b : Fin 8) (s d : Fin 1024) : outMul x y mk W bias (ix3 b s d) = attnMul x y mk W bias b s d := rfl

end Arrays

end Cert.Attn

end
-- ==== Proof.KerPayload.lean ====
/-
  The kernel body's arithmetic, read at an index on the extended reals.  The body computes, for a chunk of 256 rows
  of `y`, the rows' products with `W` plus the bias (the projected keys), copies chunks of `x`, and for a tile of 512
  query rows the masked softmax attention against the cached projected keys and values.
-/
import proofs.«408106_j51926154608748_3_alg».proof.Proof.Gen.KernelIdeal.Skeleton
import proofs.«408106_j51926154608748_3_alg».proof.Proof.AttnSpec
import Idealize.ShloMosaic.PureOps.Ideal.Laws
import Idealize.ShloMosaic.Lib.Pipeline.Value
import Idealize.ShloMosaic.Lib.ValueLayout

noncomputable section

namespace Cert.Attn.Ker

open Cert.KernelIdeal Cert.KernelIdeal.Gen Idealize.ShloMosaic Idealize.ShloMosaic.ValueIdx

/-! ### Layout operations read at an index: a vector cast to a column, a column broadcast along the lanes, the bias
     broadcast over the rows, a chunk with its unit axis dropped -/

/-- A vector `[a]` cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The bias `[1024]`, cast to one row and broadcast over 256 rows, reads at `(r, t)` the bias at `t`. -/
private theorem biasRows_apply {α : Type} (bv : S1024.Idx → α) (r : Fin 256) (t : Fin 1024) :
    broadcastTo S256x1024 (shapeCast S1x1024 bv shapeCasts_S1024_S1x1024) broadcasts_S1x1024_S256x1024 (ix2 r t) = bv (ix1 t) :=
  (broadcastTo_1b_ab_apply _ broadcasts_S1x1024_S256x1024 r t).trans (shapeCast_a_1a_apply bv shapeCasts_S1024_S1x1024 0 t)

/-- A chunk `[1, 256, 1024]` viewed as `[256, 1024]` reads at `(r, t)` the chunk at `(0, r, t)`. -/
private theorem chunk_apply {α : Type} (v : S1x256x1024.Idx → α) (r : Fin 256) (t : Fin 1024) :
    shapeCast S256x1024 v shapeCasts_S1x256x1024_S256x1024 (ix2 r t) = v (ix3 0 r t) :=
  shapeCast_1ab_ab_apply v shapeCasts_S1x256x1024_S256x1024 r t

/-! ### The product of a `[256, 1024]` block with a `[1024, 1024]` matrix, read at an index -/

private theorem lhs256_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
private theorem lhs256_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
private theorem rhs256_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
private theorem rhs256_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into the zero splat, the product at `(r, t)` is the sum over the contracted coordinate `e` of the left operand at
    `(r, e)` times the right operand at `(e, t)`. -/
private theorem matmul256_apply (lhs : FVec Ideal S256x1024 .bf16) (rhs : FVec Ideal S1024x1024 .bf16) (r : Fin 256) (t : Fin 1024) :
    matmul (F := Ideal) dot_S256x1024_S1024x1024_S256x1024_1_0_0_1_n_n none lhs rhs (constant (F := Ideal) S256x1024 .f32 0x00000000#32) (ix2 r t)
      = ∑ e : Fin 1024, lhs (ix2 r e) * rhs (ix2 e t) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r t) ((ValueIdx.contrEquiv1 dot_S256x1024_S1024x1024_S256x1024_1_0_0_1_n_n 1024 rfl rfl).symm k) = ix2 r k := funext fun a => Fin.ext (by
    match a with
    | ⟨0, _⟩ => exact lhs256_0 _ _
    | ⟨1, _⟩ => exact (lhs256_1 _ _).trans hk)
  have er : dot_S256x1024_S1024x1024_S256x1024_1_0_0_1_n_n.rhsIdx (ix2 r t) ((ValueIdx.contrEquiv1 dot_S256x1024_S1024x1024_S256x1024_1_0_0_1_n_n 1024 rfl rfl).symm k) = ix2 k t := funext fun a => Fin.ext (by
    match a with
    | ⟨0, _⟩ => exact (rhs256_0 _ _).trans hk
    | ⟨1, _⟩ => exact rhs256_1 _ _)
  rw [el, er]

/-! ### The product of a `[512, 1024]` block with a `[1024, 1024]` matrix, read at an index -/

private theorem lhs512_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs512_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs512_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs512_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into the zero splat, the product at `(r, t)` is the sum over the contracted coordinate `e` of the left operand at
    `(r, e)` times the right operand at `(e, t)`. -/
private theorem matmul512_apply (lhs : FVec Ideal S512x1024 .bf16) (rhs : FVec Ideal S1024x1024 .bf16) (r : Fin 512) (t : Fin 1024) :
    matmul (F := Ideal) dot_S512x1024_S1024x1024_S512x1024_1_0_0_1_n_n none lhs rhs (constant (F := Ideal) S512x1024 .f32 0x00000000#32) (ix2 r t)
      = ∑ e : Fin 1024, lhs (ix2 r e) * rhs (ix2 e t) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r t) ((ValueIdx.contrEquiv1 dot_S512x1024_S1024x1024_S512x1024_1_0_0_1_n_n 1024 rfl rfl).symm k) = ix2 r k := funext fun a => Fin.ext (by
    match a with
    | ⟨0, _⟩ => exact lhs512_0 _ _
    | ⟨1, _⟩ => exact (lhs512_1 _ _).trans hk)
  have er : dot_S512x1024_S1024x1024_S512x1024_1_0_0_1_n_n.rhsIdx (ix2 r t) ((ValueIdx.contrEquiv1 dot_S512x1024_S1024x1024_S512x1024_1_0_0_1_n_n 1024 rfl rfl).symm k) = ix2 k t := funext fun a => Fin.ext (by
    match a with
    | ⟨0, _⟩ => exact (rhs512_0 _ _).trans hk
    | ⟨1, _⟩ => exact rhs512_1 _ _)
  rw [el, er]

/-- A chunk of projected keys: row `r` of the chunk `v` of `y` against column `t` of `w`, plus the bias. -/
def projChunk (w : Vec Ideal S1024x1024 .f32) (bv : Vec Ideal S1024 .f32) (v : Vec Ideal S1x256x1024 .f32) (r : Fin 256) (t : Fin 1024) : EReal :=
  (∑ e : Fin 1024, v (ix3 0 r e) * w (ix2 e t)) + bv (ix1 t)

/-- The weights' cast and the re-cast of a stored chunk change nothing. -/
theorem pay4_eq (w : Vec Ideal S1024x1024 .f32) : k0_pay4 (F := Ideal) w = w := rfl
theorem pay8_eq (v : FVec Ideal S256x1024 .bf16) : k0_pay8 (F := Ideal) v = v :=
  shapeCast_self v shapeCasts_S256x1024_S256x1024

/-- The product of a chunk with the weights, plus the bias, at `(r, t)`: the shape every chunk's payload takes. -/
private theorem projTerm_apply (w : FVec Ideal S1024x1024 .bf16) (bv : Vec Ideal S1024 .f32) (v : Vec Ideal S1x256x1024 .f32) (r : Fin 256) (t : Fin 1024) :
    addf (F := Ideal)
        (matmul (F := Ideal) dot_S256x1024_S1024x1024_S256x1024_1_0_0_1_n_n none
          (truncf .bf16 (shapeCast S256x1024 v shapeCasts_S1x256x1024_S256x1024) bitsLt_bf16_f32) w
          (constant (F := Ideal) S256x1024 .f32 0x00000000#32))
        (broadcastTo S256x1024 (shapeCast S1x1024 bv shapeCasts_S1024_S1x1024) broadcasts_S1x1024_S256x1024) (ix2 r t)
      = (∑ e : Fin 1024, v (ix3 0 r e) * w (ix2 e t)) + bv (ix1 t) := by
  rw [addf_apply, matmul256_apply, biasRows_apply]
  refine congrArg (· + bv (ix1 t)) (Finset.sum_congr rfl fun e _ => ?_)
  rw [truncf_apply, chunk_apply]

/-- The four chunks of projected keys, as the body computes them. -/
theorem pay5_apply (w : Vec Ideal S1024x1024 .f32) (bv : Vec Ideal S1024 .f32) (v : Vec Ideal S1x256x1024 .f32) (r : Fin 256) (t : Fin 1024) :
    k0_pay5 (F := Ideal) w bv v (ix2 r t) = projChunk w bv v r t := by
  unfold k0_pay5 projChunk
  rw [shapeCast_self, truncf_apply, pay4_eq]
  exact projTerm_apply w bv v r t
theorem pay7_apply (w : Vec Ideal S1024x1024 .f32) (bv : Vec Ideal S1024 .f32) (v : Vec Ideal S1x256x1024 .f32) (r : Fin 256) (t : Fin 1024) :
    k0_pay7 (F := Ideal) w bv v (ix2 r t) = projChunk w bv v r t := by
  unfold k0_pay7 projChunk
  rw [truncf_apply, pay4_eq]
  exact projTerm_apply w bv v r t
theorem pay10_apply (w : Vec Ideal S1024x1024 .f32) (bv : Vec Ideal S1024 .f32) (v : Vec Ideal S1x256x1024 .f32) (r : Fin 256) (t : Fin 1024) :
    k0_pay10 (F := Ideal) (k0_pay4 (F := Ideal) w) bv v (ix2 r t) = projChunk w bv v r t := by
  unfold k0_pay10 projChunk
  rw [shapeCast_self, truncf_apply, pay4_eq]
  exact projTerm_apply w bv v r t
theorem pay1_apply (w : Vec Ideal S1024x1024 .f32) (bv : Vec Ideal S1024 .f32) (v : Vec Ideal S1x256x1024 .f32) (r : Fin 256) (t : Fin 1024) :
    k0_pay1 (F := Ideal) bv (k0_pay12 (F := Ideal) (k0_pay4 (F := Ideal) w) v) (ix2 r t) = projChunk w bv v r t := by
  unfold k0_pay1 k0_pay12 projChunk
  rw [shapeCast_self, truncf_apply, pay4_eq]
  exact projTerm_apply w bv v r t

/-- A copied chunk of `x`: the chunk viewed as `[256, 1024]`, its format changed and re-cast, at `(r, t)`. -/
private theorem copyTerm_apply (v : Vec Ideal S1x256x1024 .f32) (r : Fin 256) (t : Fin 1024) :
    shapeCast S256x1024 (truncf (F := Ideal) .bf16 (shapeCast S256x1024 v shapeCasts_S1x256x1024_S256x1024) bitsLt_bf16_f32)
        shapeCasts_S256x1024_S256x1024 (ix2 r t) = v (ix3 0 r t) := by
  rw [shapeCast_self, truncf_apply, chunk_apply]

/-- The four copied chunks of `x`. -/
theorem pay6_apply (v : Vec Ideal S1x256x1024 .f32) (r : Fin 256) (t : Fin 1024) : k0_pay6 (F := Ideal) v (ix2 r t) = v (ix3 0 r t) :=
  copyTerm_apply v r t
theorem pay9_apply (v : Vec Ideal S1x256x1024 .f32) (r : Fin 256) (t : Fin 1024) : k0_pay9 (F := Ideal) v (ix2 r t) = v (ix3 0 r t) :=
  copyTerm_apply v r t
theorem pay11_apply (v : Vec Ideal S1x256x1024 .f32) (r : Fin 256) (t : Fin 1024) : k0_pay11 (F := Ideal) v (ix2 r t) = v (ix3 0 r t) :=
  copyTerm_apply v r t
theorem pay2_apply (v : Vec Ideal S1x256x1024 .f32) (r : Fin 256) (t : Fin 1024) : k0_pay2 (F := Ideal) v (ix2 r t) = v (ix3 0 r t) :=
  copyTerm_apply v r t

/-! ### The output tile: scores, row maxima, weights, their sums, the normalised weights, the product with the values -/

/-- The exponential at an index is the extended reals' exponential of the element. -/
private theorem exp_apply {s : Shape} {φ : FTy} (a : FVec Ideal s φ) (i : s.Idx) : exp a i = Ideal.exp (a i) := rfl

/-- Over the row index `r`, the index of the `[512, 1024]` source with `k` put on the reduced (lane) axis is `(r, k)`. -/
private theorem lift_row (r : Fin 512) (k : Fin 1024) : reduces_S512x1024_S512.lift (ix1 r) k = ix2 r k :=
  funext fun a => Fin.ext (by match a with | ⟨0, _⟩ => rfl | ⟨1, _⟩ => rfl)

/-- The lane maximum of a `[512, 1024]` matrix from the word of `-∞`, at row `r`: the row's maximum. -/
private theorem laneMax_apply (X : FVec Ideal S512x1024 .f32) (r : Fin 512) :
    multiReduction (F := Ideal) .maximumf [1] S512 X 0xFF800000#32 reduces_S512x1024_S512 (.inl rfl) rfl (ix1 r)
      = rowMax (fun t => X (ix2 r t)) := by
  refine (Ideal.multiReduction_maximumf_single X 0xFF800000#32 reduces_S512x1024_S512 (.inl rfl) rfl (ix1 r)).trans ?_
  unfold rowMax negInf
  exact congrArg (fun f => Finset.fold max (Ideal.ofBits .f32 0xFF800000#32) f Finset.univ)
    (funext fun k => congrArg X (lift_row r k))

/-- The lane sum of a `[512, 1024]` matrix from the zero word, at row `r`: the sum of the row. -/
private theorem laneSum_apply (X : FVec Ideal S512x1024 .f32) (r : Fin 512) :
    multiReduction (F := Ideal) .add [1] S512 X 0x00000000#32 reduces_S512x1024_S512 (.inl rfl) rfl (ix1 r)
      = ∑ t : Fin 1024, X (ix2 r t) :=
  (Ideal.multiReduction_add_single X 0x00000000#32 reduces_S512x1024_S512 (.inl rfl) rfl (ix1 r)).trans
    (Finset.sum_congr rfl fun k _ => congrArg X (lift_row r k))

/-- A per-row quantity `[512]`, cast to a column and broadcast along the lanes, reads at `(r, t)` the quantity at `r`. -/
private theorem column_apply {α : Type} (c : S512.Idx → α) (r : Fin 512) (t : Fin 1024) :
    broadcastTo S512x1024 (shapeCast S512x1 c shapeCasts_S512_S512x1) broadcasts_S512x1_S512x1024 (ix2 r t) = c (ix1 r) :=
  (broadcastTo_a1_ab_apply _ broadcasts_S512x1_S512x1024 r t).trans (shapeCast_a_a1_apply c shapeCasts_S512_S512x1 r 0)

/-- The score matrix of the tile: the queries against the projected keys, plus the mask tile times its factor. -/
private def scoreMat (q : FVec Ideal S512x1024 .bf16) (pk : FVec Ideal S1024x1024 .bf16) (mt : Vec Ideal S1x512x1024 .f32) : FVec Ideal S512x1024 .f32 :=
  addf (matmul (F := Ideal) dot_S512x1024_S1024x1024_S512x1024_1_0_0_1_n_n none q pk (constant (F := Ideal) S512x1024 .f32 0x00000000#32))
    (mulf (shapeCast S512x1024 mt shapeCasts_S1x512x1024_S512x1024) (broadcast S512x1024 (Scalar.ofBits (F := Ideal) .f32 0xCE6E6B28#32)))

/-- The unnormalised weights of a score matrix: each entry minus its row's maximum, exponentiated. -/
private def expMat (X : FVec Ideal S512x1024 .f32) : FVec Ideal S512x1024 .f32 :=
  exp (subf X (broadcastTo S512x1024
    (shapeCast S512x1 (multiReduction (F := Ideal) .maximumf [1] S512 X 0xFF800000#32 reduces_S512x1024_S512 (.inl rfl) rfl) shapeCasts_S512_S512x1)
    broadcasts_S512x1_S512x1024))

/-- The weights, each multiplied by the reciprocal of its row's sum. -/
private def normMat (W : FVec Ideal S512x1024 .f32) : FVec Ideal S512x1024 .f32 :=
  mulf W (broadcastTo S512x1024
    (divf (broadcast S512x1 (Scalar.ofBits (F := Ideal) .f32 0x3F800000#32))
      (shapeCast S512x1 (multiReduction (F := Ideal) .add [1] S512 W 0x00000000#32 reduces_S512x1024_S512 (.inl rfl) rfl) shapeCasts_S512_S512x1))
    broadcasts_S512x1_S512x1024)

/-- The payload is the product of the normalised weights of the score matrix with the values, with a leading unit axis. -/
private theorem pay3_eq (q : Vec Ideal S512x1024 .bf16) (pk : Vec Ideal S1024x1024 .bf16) (mt : Vec Ideal S1x512x1024 .f32) (xv : Vec Ideal S1024x1024 .bf16) :
    k0_pay3 (F := Ideal) q pk mt xv
      = shapeCast S1x512x1024
          (matmul (F := Ideal) (φ₁ := .bf16) (φ₂ := .bf16) dot_S512x1024_S1024x1024_S512x1024_1_0_0_1_n_n none (truncf .bf16 (normMat (expMat (scoreMat q pk mt))) bitsLt_bf16_f32) xv
            (constant (F := Ideal) S512x1024 .f32 0x00000000#32))
          shapeCasts_S512x1024_S1x512x1024 := rfl

/-- A score at `(r, t)` is the row score of query row `r`. -/
private theorem scoreMat_apply (q : FVec Ideal S512x1024 .bf16) (pk : FVec Ideal S1024x1024 .bf16) (mt : Vec Ideal S1x512x1024 .f32) (r : Fin 512) (t : Fin 1024) :
    scoreMat q pk mt (ix2 r t) = rowScore (fun e => q (ix2 r e)) (fun e t => pk (ix2 e t)) (fun t => mt (ix3 0 r t)) t := by
  unfold scoreMat rowScore negBig
  rw [addf_apply, matmul512_apply, mulf_apply, shapeCast_1ab_ab_apply, broadcast_apply]
  rfl

/-- An unnormalised weight at `(r, t)` is the row weight of row `r`. -/
private theorem expMat_apply (X : FVec Ideal S512x1024 .f32) (r : Fin 512) (t : Fin 1024) :
    expMat X (ix2 r t) = rowW (fun t => X (ix2 r t)) t := by
  unfold expMat rowW
  rw [exp_apply, subf_apply, column_apply, laneMax_apply]

/-- The word of `1.0` is the extended real one. -/
private theorem one_word : Scalar.ofBits (F := Ideal) .f32 0x3F800000#32 = (1 : EReal) := by
  show Ideal.ofBits .f32 0x3F800000#32 = 1
  rw [show (1 : EReal) = ((1 : ℝ) : EReal) by norm_cast]
  simp [Ideal.ofBits, Ideal.ieee, -EReal.coe_mul]; norm_num

/-- A normalised weight at `(r, t)`: the weight times the reciprocal of the sum of its row. -/
private theorem normMat_apply (W : FVec Ideal S512x1024 .f32) (r : Fin 512) (t : Fin 1024) :
    normMat W (ix2 r t) = W (ix2 r t) * Ideal.div 1 (∑ t' : Fin 1024, W (ix2 r t')) := by
  unfold normMat
  rw [mulf_apply, broadcastTo_a1_ab_apply, divf_apply, broadcast_apply, shapeCast_a_a1_apply, laneSum_apply, one_word]

/-- The output tile: row `r` of the query tile `q` against the cached projected keys `pk`, with the mask tile's row,
    softmaxed in the multiplying form against the cached values `xv`. -/
theorem pay3_apply (q : Vec Ideal S512x1024 .bf16) (pk : Vec Ideal S1024x1024 .bf16) (mt : Vec Ideal S1x512x1024 .f32)
    (xv : Vec Ideal S1024x1024 .bf16) (r : Fin 512) (d : Fin 1024) :
    k0_pay3 (F := Ideal) q pk mt xv (ix3 0 r d)
      = rowOutMul (rowScore (fun e => q (ix2 r e)) (fun e t => pk (ix2 e t)) (fun t => mt (ix3 0 r t))) (fun t d => xv (ix2 t d)) d := by
  have hW : ∀ t : Fin 1024, expMat (scoreMat q pk mt) (ix2 r t)
      = rowW (rowScore (fun e => q (ix2 r e)) (fun e t => pk (ix2 e t)) (fun t => mt (ix3 0 r t))) t := fun t => by
    rw [expMat_apply]
    exact congrArg (fun a => rowW a t) (funext fun t' => scoreMat_apply q pk mt r t')
  have hsum : (∑ t' : Fin 1024, expMat (scoreMat q pk mt) (ix2 r t'))
      = rowDen (rowScore (fun e => q (ix2 r e)) (fun e t => pk (ix2 e t)) (fun t => mt (ix3 0 r t))) :=
    Finset.sum_congr rfl fun t' _ => hW t'
  rw [pay3_eq, shapeCast_ab_1ab_apply, matmul512_apply]
  unfold rowOutMul
  refine Finset.sum_congr rfl fun t _ => ?_
  rw [truncf_apply, normMat_apply, hW t, hsum]

end Cert.Attn.Ker

end
-- ==== Proof.KerPieces.lean ====
/-
  What one grid point's body leaves behind, as values on the extended reals.

  At the first point of a batch the body fills two caches, 256 rows at a time: the projected keys
  `y · W + bias` of the batch and a copy of the batch's `x`.  Four row slabs of one array, each holding that array's
  rows, read back as the array.  At every point the body then writes one output block: the masked softmax
  attention of the point's 512 query rows (rows of the cached `x`) against the cached projected keys and the
  cached `x`.  At the second point of a batch the caches are those the first point left.
-/
import proofs.«408106_j51926154608748_3_alg».proof.Proof.Gen.KernelIdeal.Frame
import proofs.«408106_j51926154608748_3_alg».proof.Proof.KerPayload
import Idealize.ShloMosaic.Lib.Pipeline.Value
import Idealize.ShloMosaic.Lib.Tactic

set_option maxRecDepth 16384

noncomputable section

namespace Cert.Attn.Ker

open Cert.KernelIdeal Cert.KernelIdeal.Gen
open Idealize.ShloMosaic Idealize.ShloMosaic.TcCoe Idealize.ShloMosaic.Tactic Idealize.ShloMosaic.ValueIdx
open Idealize.SL Idealize.SL.Sem

/-! ## The caches and the query tile, as functions of the staged blocks -/

/-- The projected keys of the batch whose block of `y` is `yb`: row `d`, column `t`. -/
def projBlk (yb : Vec Ideal S1x1024x1024 .f32) (w : Vec Ideal S1024x1024 .f32) (bv : Vec Ideal S1024 .f32) : Vec Ideal S1024x1024 .bf16 :=
  fun j => (∑ e : Fin 1024, yb (ix3 0 (j 0) e) * w (ix2 e (j 1))) + bv (ix1 (j 1))

/-- The batch's block of `x` without its leading unit axis. -/
def xBlk (xb : Vec Ideal S1x1024x1024 .f32) : Vec Ideal S1024x1024 .bf16 := fun j => xb (ix3 0 (j 0) (j 1))

/-- 512 consecutive rows of a cache, from row `o`. -/
def qRows (o : Nat) (ho : o + 512 ≤ 1024) (X : Vec Ideal S1024x1024 .bf16) : Vec Ideal S512x1024 .bf16 :=
  fun y => X (ix2 ⟨o + (y 0).val, by have h : (y 0).val < 512 := (y 0).isLt; omega⟩ (y 1))

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-! ## Slabs -/

/-- A load of 256 rows of a staged [1, 1024, 1024] block, from row `o`, read at an index. -/
theorem readAt_slab (M : Memref sig .tc .vmem S1x1024x1024 .f32) (hM : M.IsWhole) (xb : Vec Ideal S1x1024x1024 .f32) (o : Nat) (ho : o + 256 ≤ 1024)
    (inb : ∀ a, (![0, o, 0] : Fin 3 → Nat) a + (![1, 256, 1024] : Fin 3 → Nat) a ≤ S1x1024x1024.size a) (r : Fin 256) (e : Fin 1024) :
    View.readAt (Elt Ideal) M.view (Rect.unit (s := S1x1024x1024) ![0, o, 0] ![1, 256, 1024] inb).toLoadRect (hM.unread xb) (ix3 0 r e)
      = xb (ix3 0 ⟨o + r.val, by omega⟩ e) := by
  rw [View.readAt_eq_ld, hM.read_unread]
  show xb _ = xb _
  refine congrArg xb (funext fun a => Fin.ext ?_)
  match a with
  | ⟨0, _⟩ => rfl
  | ⟨1, _⟩ => show o + 1 * r.val = o + r.val; omega
  | ⟨2, _⟩ => show 0 + 1 * e.val = e.val; omega

/-- Four slabs of 256 rows, each holding the rows of ONE array `G` it covers, read back as `G`. -/
theorem canon_four_slabs (G : Vec Ideal S1024x1024 .bf16) (w0 w1 w2 w3 : Vec Ideal S256x1024 .bf16)
    (inb0 : ∀ a, (![0, 0] : Fin 2 → Nat) a + (![256, 1024] : Fin 2 → Nat) a ≤ S1024x1024.size a)
    (inb1 : ∀ a, (![256, 0] : Fin 2 → Nat) a + (![256, 1024] : Fin 2 → Nat) a ≤ S1024x1024.size a)
    (inb2 : ∀ a, (![512, 0] : Fin 2 → Nat) a + (![256, 1024] : Fin 2 → Nat) a ≤ S1024x1024.size a)
    (inb3 : ∀ a, (![768, 0] : Fin 2 → Nat) a + (![256, 1024] : Fin 2 → Nat) a ≤ S1024x1024.size a)
    (h0 : ∀ (r : Fin 256) (t : Fin 1024), w0 (ix2 r t) = G (ix2 ⟨0 + r.val, by omega⟩ t))
    (h1 : ∀ (r : Fin 256) (t : Fin 1024), w1 (ix2 r t) = G (ix2 ⟨256 + r.val, by omega⟩ t))
    (h2 : ∀ (r : Fin 256) (t : Fin 1024), w2 (ix2 r t) = G (ix2 ⟨512 + r.val, by omega⟩ t))
    (h3 : ∀ (r : Fin 256) (t : Fin 1024), w3 (ix2 r t) = G (ix2 ⟨768 + r.val, by omega⟩ t)) :
    View.canon (Val := Elt Ideal)
        [(⟨Rect.unit (s := S1024x1024) ![768, 0] ![256, 1024] inb3, w3⟩ : View.Piece (Elt Ideal) S1024x1024 .bf16),
         ⟨Rect.unit (s := S1024x1024) ![512, 0] ![256, 1024] inb2, w2⟩,
         ⟨Rect.unit (s := S1024x1024) ![256, 0] ![256, 1024] inb1, w1⟩,
         ⟨Rect.unit (s := S1024x1024) ![0, 0] ![256, 1024] inb0, w0⟩] = G := by
  funext j
  have hj0 : (j 0).val < 1024 := (j 0).isLt
  have hj1 : (j 1).val < 1024 := (j 1).isLt
  -- each slab's payload is `G` at the slab's embedded index
  have slab : ∀ (o : Nat) (ho : o + 256 ≤ 1024) (inb : ∀ a, (![o, 0] : Fin 2 → Nat) a + (![256, 1024] : Fin 2 → Nat) a ≤ S1024x1024.size a)
      (w : Vec Ideal S256x1024 .bf16) (h : ∀ (r : Fin 256) (t : Fin 1024), w (ix2 r t) = G (ix2 ⟨o + r.val, by omega⟩ t))
      (x : (Rect.unit (s := S1024x1024) ![o, 0] ![256, 1024] inb).shape.Idx),
      w x = G ((Rect.unit (s := S1024x1024) ![o, 0] ![256, 1024] inb).emb x) := by
    intro o ho inb w h x
    obtain ⟨r, t, rfl⟩ : ∃ (r : Fin 256) (t : Fin 1024), x = ix2 r t := ⟨x 0, x 1, eq_ix2 x⟩
    rw [h r t]
    refine congrArg G (funext fun a => Fin.ext ?_)
    match a with
    | ⟨0, _⟩ => show o + r.val = o + 1 * r.val; omega
    | ⟨1, _⟩ => show t.val = 0 + 1 * t.val; omega
  refine View.canon_apply_of_pieces G _ ?_ j ?_
  · intro p hp x
    simp only [List.mem_cons, List.not_mem_nil, or_false] at hp
    rcases hp with rfl | rfl | rfl | rfl
    · exact slab 768 (by omega) inb3 w3 h3 x
    · exact slab 512 (by omega) inb2 w2 h2 x
    · exact slab 256 (by omega) inb1 w1 h1 x
    · exact slab 0 (by omega) inb0 w0 h0 x
  · -- the slab that holds row `j 0`
    have mem : ∀ (o : Nat) (inb : ∀ a, (![o, 0] : Fin 2 → Nat) a + (![256, 1024] : Fin 2 → Nat) a ≤ S1024x1024.size a),
        o ≤ (j 0).val → (j 0).val < o + 256 → j ∈ (Rect.unit (s := S1024x1024) ![o, 0] ![256, 1024] inb).set := by
      intro o inb hlo hhi
      rw [Rect.mem_set_unit]
      intro a
      match a with
      | ⟨0, _⟩ => exact ⟨hlo, hhi⟩
      | ⟨1, _⟩ => exact ⟨Nat.zero_le _, by show (j 1).val < 0 + 1024; omega⟩
    by_cases c3 : 768 ≤ (j 0).val
    · exact ⟨_, List.mem_cons_self, mem 768 inb3 c3 (by omega)⟩
    by_cases c2 : 512 ≤ (j 0).val
    · exact ⟨_, List.mem_cons_of_mem _ List.mem_cons_self, mem 512 inb2 c2 (by omega)⟩
    by_cases c1 : 256 ≤ (j 0).val
    · exact ⟨_, List.mem_cons_of_mem _ (List.mem_cons_of_mem _ List.mem_cons_self), mem 256 inb1 c1 (by omega)⟩
    · exact ⟨_, List.mem_cons_of_mem _ (List.mem_cons_of_mem _ (List.mem_cons_of_mem _ List.mem_cons_self)), mem 0 inb0 (Nat.zero_le _) (by omega)⟩

/-- A load of 512 rows of a cache `X`, from row `o` (however the offsets are spelt). -/
theorem ld_rows (X : Vec Ideal S1024x1024 .bf16) (off : Fin 2 → Nat) (o : Nat) (hoff : off = ![o, 0]) (ho : o + 512 ≤ 1024)
    (inb : ∀ a, off a + (![512, 1024] : Fin 2 → Nat) a ≤ S1024x1024.size a) :
    View.ld X (Rect.unit (s := S1024x1024) off ![512, 1024] inb) = qRows o ho X := by
  subst hoff
  funext y
  show X _ = X _
  refine congrArg X (funext fun a => Fin.ext ?_)
  match a with
  | ⟨0, _⟩ => show o + 1 * (y 0).val = o + (y 0).val; omega
  | ⟨1, _⟩ => show 0 + 1 * (y 1).val = (y 1).val; omega

/-- A load of a whole staged buffer reads its contents. -/
theorem readAt_whole2 {el : EltTy} (M : Memref sig .tc .vmem S1024x1024 el) (hM : M.IsWhole) (X : Vec Ideal S1024x1024 el)
    (inb : ∀ a, (![0, 0] : Fin 2 → Nat) a + S1024x1024.size a ≤ S1024x1024.size a) :
    View.readAt (Elt Ideal) M.view (Rect.unit (s := S1024x1024) ![0, 0] S1024x1024.size inb).toLoadRect (hM.unread X) = X := by
  rw [View.readAt_eq_ld, hM.read_unread, View.ld_unit_zero hz2]
theorem readAt_whole1 (M : Memref sig .tc .vmem S1024 .f32) (hM : M.IsWhole) (X : Vec Ideal S1024 .f32)
    (inb : ∀ a, (![0] : Fin 1 → Nat) a + S1024.size a ≤ S1024.size a) :
    View.readAt (Elt Ideal) M.view (Rect.unit (s := S1024) ![0] S1024.size inb).toLoadRect (hM.unread X) = X := by
  rw [View.readAt_eq_ld, hM.read_unread, View.ld_unit_zero hz1]
theorem readAt_whole3 (M : Memref sig .tc .vmem S1x512x1024 .f32) (hM : M.IsWhole) (X : Vec Ideal S1x512x1024 .f32)
    (inb : ∀ a, (![0, 0, 0] : Fin 3 → Nat) a + S1x512x1024.size a ≤ S1x512x1024.size a) :
    View.readAt (Elt Ideal) M.view (Rect.unit (s := S1x512x1024) ![0, 0, 0] S1x512x1024.size inb).toLoadRect (hM.unread X) = X := by
  rw [View.readAt_eq_ld, hM.read_unread, View.ld_unit_zero hz3]

/-- A load of 512 rows of a cache holding `X`, from row `o`. -/
theorem readAt_rows (M : Memref sig .tc .vmem S1024x1024 .bf16) (hM : M.IsWhole) (X : Vec Ideal S1024x1024 .bf16) (off : Fin 2 → Nat) (o : Nat)
    (hoff : off = ![o, 0]) (ho : o + 512 ≤ 1024) (inb : ∀ a, off a + (![512, 1024] : Fin 2 → Nat) a ≤ S1024x1024.size a) :
    View.readAt (Elt Ideal) M.view (Rect.unit (s := S1024x1024) off ![512, 1024] inb).toLoadRect (hM.unread X) = qRows o ho X := by
  rw [View.readAt_eq_ld, hM.read_unread]; exact ld_rows X off o hoff ho inb

/-- The same load after the cache was filled by pieces that read back as `G`. -/
theorem readAt_rows_writes (M : Memref sig .tc .vmem S1024x1024 .bf16) (L : List (View.Piece (Elt Ideal) S1024x1024 .bf16)) (G : Vec Ideal S1024x1024 .bf16)
    (hcov : ∀ y, ∃ p ∈ L, y ∈ p.1.set) (hG : View.canon L = G) (off : Fin 2 → Nat) (o : Nat)
    (hoff : off = ![o, 0]) (ho : o + 512 ≤ 1024) (inb : ∀ a, off a + (![512, 1024] : Fin 2 → Nat) a ≤ S1024x1024.size a) :
    View.readAt (Elt Ideal) M.view (Rect.unit (s := S1024x1024) off ![512, 1024] inb).toLoadRect (M.view.writes (Elt Ideal) M.view.junk L) = qRows o ho G := by
  rw [View.readAt_eq_ld, View.read_writes_eq_canon _ _ _ hcov, hG]; exact ld_rows G off o hoff ho inb

/-- A load of the whole cache after it was filled by such pieces. -/
theorem readCov_whole (M : Memref sig .tc .vmem S1024x1024 .bf16) (L : List (View.Piece (Elt Ideal) S1024x1024 .bf16)) (G : Vec Ideal S1024x1024 .bf16)
    (hcov : ∀ y, ∃ p ∈ L, y ∈ p.1.set) (hG : View.canon L = G)
    (inb : ∀ a, (![0, 0] : Fin 2 → Nat) a + S1024x1024.size a ≤ S1024x1024.size a) :
    M.view.readCov L (Rect.unit (s := S1024x1024) ![0, 0] S1024x1024.size inb).toLoadRect = G := by
  rw [View.readCov_eq_canon_ld _ _ _ hcov, hG, View.ld_unit_zero hz2]

/-- The output tile's arithmetic respects equal operands. -/
theorem pay3_congr {q q' : Vec Ideal S512x1024 .bf16} {pk pk' : Vec Ideal S1024x1024 .bf16} {mt mt' : Vec Ideal S1x512x1024 .f32}
    {xv xv' : Vec Ideal S1024x1024 .bf16} (h1 : q = q') (h2 : pk = pk') (h3 : mt = mt') (h4 : xv = xv') :
    k0_pay3 (F := Ideal) q pk mt xv = k0_pay3 (F := Ideal) q' pk' mt' xv' := by subst h1 h2 h3 h4; rfl

/-- The tile's first row is inside the cache. -/
theorem tile_le (i : grid0.Coords) : 512 * (i 1).val + 512 ≤ 1024 := by
  have h : (i 1).val < 2 := (i 1).isLt
  omega

/-- A chunk of projected keys computed from loads of the staged blocks is the chunk's rows of `projBlk`. -/
theorem proj_slab (M2 : Memref sig .tc .vmem S1x1024x1024 .f32) (hM2 : M2.IsWhole) (yb : Vec Ideal S1x1024x1024 .f32)
    (M5 : Memref sig .tc .vmem S1024x1024 .f32) (hM5 : M5.IsWhole) (w : Vec Ideal S1024x1024 .f32)
    (M6 : Memref sig .tc .vmem S1024 .f32) (hM6 : M6.IsWhole) (bv : Vec Ideal S1024 .f32) (o : Nat) (ho : o + 256 ≤ 1024)
    (inb : ∀ a, (![0, o, 0] : Fin 3 → Nat) a + (![1, 256, 1024] : Fin 3 → Nat) a ≤ S1x1024x1024.size a)
    (inb5 : ∀ a, (![0, 0] : Fin 2 → Nat) a + S1024x1024.size a ≤ S1024x1024.size a)
    (inb6 : ∀ a, (![0] : Fin 1 → Nat) a + S1024.size a ≤ S1024.size a) (r : Fin 256) (t : Fin 1024) :
    projChunk (View.readAt (Elt Ideal) M5.view (Rect.unit (s := S1024x1024) ![0, 0] S1024x1024.size inb5).toLoadRect (hM5.unread w))
        (View.readAt (Elt Ideal) M6.view (Rect.unit (s := S1024) ![0] S1024.size inb6).toLoadRect (hM6.unread bv))
        (View.readAt (Elt Ideal) M2.view (Rect.unit (s := S1x1024x1024) ![0, o, 0] ![1, 256, 1024] inb).toLoadRect (hM2.unread yb)) r t
      = projBlk yb w bv (ix2 ⟨o + r.val, by omega⟩ t) := by
  rw [readAt_whole2, readAt_whole1]
  unfold projChunk projBlk
  refine congrArg (· + bv (ix1 t)) (Finset.sum_congr rfl fun e _ => ?_)
  rw [readAt_slab M2 hM2 yb o ho inb r e]

/-! ## The first point of a batch (the caches are filled) -/

section CaseA

variable (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : cond0_0 i) (x0 : Vec Ideal S1x1024x1024 .f32) (x1 : Vec Ideal S1x1024x1024 .f32) (x2 : Vec Ideal S1x512x1024 .f32) (x3 : Vec Ideal S1024x1024 .f32) (x4 : Vec Ideal S1024 .f32)

/-- The pieces the first point leaves in the cache of projected keys read back as the batch's projected keys. -/
theorem canon_keys : View.canon (kernelRun0_A (F := Ideal) c i arg2 harg2 arg3 harg3 arg4 harg4 arg5 harg5 arg6 harg6 arg7 harg7 arg8 harg8 arg9 harg9 hc0 x0 x1 x2 x3 x4).2.1 = projBlk x0 x3 x4 := by
  unfold kernelRun0_A
  dsimp only
  sl_unfold_words
  refine canon_four_slabs (projBlk x0 x3 x4) _ _ _ _ _ _ _ _ ?_ ?_ ?_ ?_
  · intro r t
    refine (pay5_apply _ _ _ r t).trans ?_
    exact proj_slab arg2 harg2 x0 arg5 harg5 x3 arg6 harg6 x4 0 (by omega) _ _ _ r t
  · intro r t
    refine (congrFun (pay8_eq _) _).trans ((pay7_apply _ _ _ r t).trans ?_)
    exact proj_slab arg2 harg2 x0 arg5 harg5 x3 arg6 harg6 x4 256 (by omega) _ _ _ r t
  · intro r t
    refine (pay10_apply _ _ _ r t).trans ?_
    exact proj_slab arg2 harg2 x0 arg5 harg5 x3 arg6 harg6 x4 512 (by omega) _ _ _ r t
  · intro r t
    refine (pay1_apply _ _ _ r t).trans ?_
    exact proj_slab arg2 harg2 x0 arg5 harg5 x3 arg6 harg6 x4 768 (by omega) _ _ _ r t

/-- The pieces it leaves in the cache of values read back as the batch's `x`. -/
theorem canon_vals : View.canon (kernelRun0_A (F := Ideal) c i arg2 harg2 arg3 harg3 arg4 harg4 arg5 harg5 arg6 harg6 arg7 harg7 arg8 harg8 arg9 harg9 hc0 x0 x1 x2 x3 x4).2.2.1 = xBlk x1 := by
  unfold kernelRun0_A
  dsimp only
  sl_unfold_words
  refine canon_four_slabs (xBlk x1) _ _ _ _ _ _ _ _ ?_ ?_ ?_ ?_
  · intro r t
    exact (pay6_apply _ r t).trans (readAt_slab arg3 harg3 x1 0 (by omega) _ r t)
  · intro r t
    exact (pay9_apply _ r t).trans (readAt_slab arg3 harg3 x1 256 (by omega) _ r t)
  · intro r t
    exact (pay11_apply _ r t).trans (readAt_slab arg3 harg3 x1 512 (by omega) _ r t)
  · intro r t
    exact (pay2_apply _ r t).trans (readAt_slab arg3 harg3 x1 768 (by omega) _ r t)

/-- The cache of projected keys after the first point of a batch. -/
theorem sout_A_0_eq : sout0_A_0 (F := Ideal) c i arg2 harg2 arg3 harg3 arg4 harg4 arg5 harg5 arg6 harg6 arg7 harg7 arg8 harg8 arg9 harg9 hc0 x0 x1 x2 x3 x4 = projBlk x0 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  exact canon_keys c i arg2 harg2 arg3 harg3 arg4 harg4 arg5 harg5 arg6 harg6 arg7 harg7 arg8 harg8 arg9 harg9 hc0 x0 x1 x2 x3 x4

/-- The cache of values after the first point of a batch. -/
theorem sout_A_1_eq : sout0_A_1 (F := Ideal) c i arg2 harg2 arg3 harg3 arg4 harg4 arg5 harg5 arg6 harg6 arg7 harg7 arg8 harg8 arg9 harg9 hc0 x0 x1 x2 x3 x4 = xBlk x1 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  exact canon_vals c i arg2 harg2 arg3 harg3 arg4 harg4 arg5 harg5 arg6 harg6 arg7 harg7 arg8 harg8 arg9 harg9 hc0 x0 x1 x2 x3 x4

/-- The output block at the first point of a batch: the attention of the point's query rows against the caches just filled. -/
theorem out_A_5_eq : out0_A_5 (F := Ideal) c i arg2 harg2 arg3 harg3 arg4 harg4 arg5 harg5 arg6 harg6 arg7 harg7 arg8 harg8 arg9 harg9 hc0 x0 x1 x2 x3 x4
    = k0_pay3 (F := Ideal) (qRows (512 * (i 1).val) (tile_le i) (xBlk x1)) (projBlk x0 x3 x4) x2 (xBlk x1) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  refine (View.canon_unit_zero (S := S1x512x1024) hz3 _ _).trans ?_
  refine pay3_congr ?_ ?_ ?_ ?_
  · exact readAt_rows_writes arg9 _ (xBlk x1) (scover0_A_1 c i arg2 harg2 arg3 harg3 arg4 harg4 arg5 harg5 arg6 harg6 arg7 harg7 arg8 harg8 arg9 harg9 hc0 x0 x1 x2 x3 x4) (canon_vals c i arg2 harg2 arg3 harg3 arg4 harg4 arg5 harg5 arg6 harg6 arg7 harg7 arg8 harg8 arg9 harg9 hc0 x0 x1 x2 x3 x4) _ (512 * (i 1).val) (k0_off3_eq i) (tile_le i) _
  · exact readCov_whole arg8 _ (projBlk x0 x3 x4) (scover0_A_0 c i arg2 harg2 arg3 harg3 arg4 harg4 arg5 harg5 arg6 harg6 arg7 harg7 arg8 harg8 arg9 harg9 hc0 x0 x1 x2 x3 x4) (canon_keys c i arg2 harg2 arg3 harg3 arg4 harg4 arg5 harg5 arg6 harg6 arg7 harg7 arg8 harg8 arg9 harg9 hc0 x0 x1 x2 x3 x4) _
  · exact readAt_whole3 arg4 harg4 x2 _
  · exact readCov_whole arg9 _ (xBlk x1) (scover0_A_1 c i arg2 harg2 arg3 harg3 arg4 harg4 arg5 harg5 arg6 harg6 arg7 harg7 arg8 harg8 arg9 harg9 hc0 x0 x1 x2 x3 x4) (canon_vals c i arg2 harg2 arg3 harg3 arg4 harg4 arg5 harg5 arg6 harg6 arg7 harg7 arg8 harg8 arg9 harg9 hc0 x0 x1 x2 x3 x4) _

end CaseA

/-! ## The second point of a batch (the caches are read) -/

section CaseB

variable (c : Dev nD) (i : grid0.Coords) (arg2 : Memref sig .tc .vmem S1x1024x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x512x1024 .f32) (harg7 : arg7.IsWhole) (arg8 : Memref sig .tc .vmem S1024x1024 .bf16) (harg8 : arg8.IsWhole) (arg9 : Memref sig .tc .vmem S1024x1024 .bf16) (harg9 : arg9.IsWhole) (hc0 : ¬cond0_0 i) (x0 : Vec Ideal S1x1024x1024 .f32) (x1 : Vec Ideal S1x1024x1024 .f32) (x2 : Vec Ideal S1x512x1024 .f32) (x3 : Vec Ideal S1024x1024 .f32) (x4 : Vec Ideal S1024 .f32) (xs0 : Vec Ideal S1024x1024 .bf16) (xs1 : Vec Ideal S1024x1024 .bf16)

/-- The output block at the second point of a batch: the same attention against the caches as the point finds them. -/
theorem out_B_5_eq : out0_B_5 (F := Ideal) c i arg2 harg2 arg3 harg3 arg4 harg4 arg5 harg5 arg6 harg6 arg7 harg7 arg8 harg8 arg9 harg9 hc0 x0 x1 x2 x3 x4 xs0 xs1
    = k0_pay3 (F := Ideal) (qRows (512 * (i 1).val) (tile_le i) xs1) xs0 x2 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  refine (View.canon_unit_zero (S := S1x512x1024) hz3 _ _).trans ?_
  refine pay3_congr ?_ ?_ ?_ ?_
  · exact readAt_rows arg9 harg9 xs1 _ (512 * (i 1).val) (k0_off3_eq i) (tile_le i) _
  · exact readAt_whole2 arg8 harg8 xs0 _
  · exact readAt_whole3 arg4 harg4 x2 _
  · exact readAt_whole2 arg9 harg9 xs1 _

end CaseB

end Cert.Attn.Ker

end
-- ==== Proof.KerCarry.lean ====
/-
  From grid points to the result array.  The grid has 8 batches of 2 points; point `t` belongs to batch `t / 2`
  and writes rows `512 · (t mod 2) …` of that batch.  The blocks the pipeline stages at `t` are the batch's slices of
  the argument arrays, so after the batch's first point the two caches hold the batch's projected keys and its `x`,
  and they still hold them at its second point.  Hence every point writes back the block of ONE array: the
  attention output in its multiplying form.
-/
import proofs.«408106_j51926154608748_3_alg».proof.Proof.Gen.KernelIdeal.Value
import proofs.«408106_j51926154608748_3_alg».proof.Proof.KerPieces

set_option maxRecDepth 16384

noncomputable section

namespace Cert.Attn.Ker

open Cert.KernelIdeal Cert.KernelIdeal.Gen Cert.KernelIdeal.Value
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## The argument arrays and the staged blocks -/

abbrev aX (c : Dev nD) : Vec Ideal S8x1024x1024 .f32 := V m c main_arg0
abbrev aY (c : Dev nD) : Vec Ideal S8x1024x1024 .f32 := V m c main_arg1
abbrev aM (c : Dev nD) : Vec Ideal S8x1024x1024 .f32 := V m c main_arg2
abbrev aW (c : Dev nD) : Vec Ideal S1024x1024 .f32 := V m c main_arg3
abbrev aB (c : Dev nD) : Vec Ideal S1024 .f32 := V m c main_arg4

abbrev yblk (c : Dev nD) (t : Fin cfg0.N) : Vec Ideal S1x1024x1024 .f32 := iblk m c 0 t
abbrev xblk (c : Dev nD) (t : Fin cfg0.N) : Vec Ideal S1x1024x1024 .f32 := iblk m c 1 t
abbrev mblk (c : Dev nD) (t : Fin cfg0.N) : Vec Ideal S1x512x1024 .f32 := iblk m c 2 t
abbrev wblk (c : Dev nD) (t : Fin cfg0.N) : Vec Ideal S1024x1024 .f32 := iblk m c 3 t
abbrev bblk (c : Dev nD) (t : Fin cfg0.N) : Vec Ideal S1024 .f32 := iblk m c 4 t

/-- The attention output in its multiplying form, of the argument arrays. -/
abbrev outK (c : Dev nD) : Vec Ideal S8x1024x1024 .f32 := outMul (aX m c) (aY m c) (aM m c) (aW m c) (aB m c)

theorem hN : cfg0.N = 16 := N_0

/-- The printed index maps, decided once over the 16 points: the batch is `t / 2`, the row tile `t mod 2`. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) = t.val / 2 ∧ win0_5.index t (1 : Fin 3) = t.val % 2 ∧ win0_5.index t (2 : Fin 3) = 0
    ∧ (grid0.coords t 1).val = t.val % 2 :=
  (by decide +kernel : ∀ t : Fin grid0.N, _)

/-- Point `t`'s batch. -/
theorem lt16 (t : Fin cfg0.N) : t.val < 16 := lt_of_lt_of_eq t.isLt hN

theorem pred_lt (t : Fin cfg0.N) : t.val - 1 < cfg0.N := lt_of_le_of_lt (Nat.sub_le _ _) t.isLt

def batchOf (t : Fin cfg0.N) : Fin 8 := ⟨t.val / 2, by have := lt16 t; omega⟩

theorem row_lt (t : Fin cfg0.N) (r : Fin 512) : 512 * (t.val % 2) + r.val < 1024 := by omega

/-! ## The blocks are the batch's slices of the arrays -/

theorem yblk_apply (c : Dev nD) (t : Fin cfg0.N) (r e : Fin 1024) : yblk m c t (ix3 0 r e) = aY m c (ix3 (batchOf t) r e) := by
  show V m c main_arg1 (((cfg0.win 0).blk t).view.emb (ix3 0 r e)) = V m c main_arg1 _
  obtain ⟨e0, e1, e2, -⟩ := idx_facts t
  refine congrArg (V m c main_arg1) (funext fun a => Fin.ext ?_)
  match a with
  | ⟨0, _⟩ => show win0_0.index t (0 : Fin 3) * 1 + 1 * 0 = t.val / 2; omega
  | ⟨1, _⟩ => show win0_0.index t (1 : Fin 3) * 1024 + 1 * r.val = r.val; omega
  | ⟨2, _⟩ => show win0_0.index t (2 : Fin 3) * 1024 + 1 * e.val = e.val; omega

theorem xblk_apply (c : Dev nD) (t : Fin cfg0.N) (r e : Fin 1024) : xblk m c t (ix3 0 r e) = aX m c (ix3 (batchOf t) r e) := by
  show V m c main_arg0 (((cfg0.win 1).blk t).view.emb (ix3 0 r e)) = V m c main_arg0 _
  obtain ⟨-, -, -, e0, e1, e2, -⟩ := idx_facts t
  refine congrArg (V m c main_arg0) (funext fun a => Fin.ext ?_)
  match a with
  | ⟨0, _⟩ => show win0_1.index t (0 : Fin 3) * 1 + 1 * 0 = t.val / 2; omega
  | ⟨1, _⟩ => show win0_1.index t (1 : Fin 3) * 1024 + 1 * r.val = r.val; omega
  | ⟨2, _⟩ => show win0_1.index t (2 : Fin 3) * 1024 + 1 * e.val = e.val; omega

theorem mblk_apply (c : Dev nD) (t : Fin cfg0.N) (r : Fin 512) (e : Fin 1024) :
    mblk m c t (ix3 0 r e) = aM m c (ix3 (batchOf t) ⟨512 * (t.val % 2) + r.val, row_lt t r⟩ e) := by
  show V m c main_arg2 (((cfg0.win 2).blk t).view.emb (ix3 0 r e)) = V m c main_arg2 _
  obtain ⟨-, -, -, -, -, -, e0, e1, e2, -⟩ := idx_facts t
  refine congrArg (V m c main_arg2) (funext fun a => Fin.ext ?_)
  match a with
  | ⟨0, _⟩ => show win0_2.index t (0 : Fin 3) * 1 + 1 * 0 = t.val / 2; omega
  | ⟨1, _⟩ => show win0_2.index t (1 : Fin 3) * 512 + 1 * r.val = 512 * (t.val % 2) + r.val; omega
  | ⟨2, _⟩ => show win0_2.index t (2 : Fin 3) * 1024 + 1 * e.val = e.val; omega

theorem wblk_apply (c : Dev nD) (t : Fin cfg0.N) (r e : Fin 1024) : wblk m c t (ix2 r e) = aW m c (ix2 r e) := by
  show V m c main_arg3 (((cfg0.win 3).blk t).view.emb (ix2 r e)) = V m c main_arg3 _
  obtain ⟨-, -, -, -, -, -, -, -, -, e0, e1, -⟩ := idx_facts t
  refine congrArg (V m c main_arg3) (funext fun a => Fin.ext ?_)
  match a with
  | ⟨0, _⟩ => show win0_3.index t (0 : Fin 2) * 1024 + 1 * r.val = r.val; omega
  | ⟨1, _⟩ => show win0_3.index t (1 : Fin 2) * 1024 + 1 * e.val = e.val; omega

theorem bblk_apply (c : Dev nD) (t : Fin cfg0.N) (e : Fin 1024) : bblk m c t (ix1 e) = aB m c (ix1 e) := by
  show V m c main_arg4 (((cfg0.win 4).blk t).view.emb (ix1 e)) = V m c main_arg4 _
  obtain ⟨-, -, -, -, -, -, -, -, -, -, -, e0, -⟩ := idx_facts t
  refine congrArg (V m c main_arg4) (funext fun a => Fin.ext ?_)
  match a with
  | ⟨0, _⟩ => show win0_4.index t (0 : Fin 1) * 1024 + 1 * e.val = e.val; omega

/-! ## The caches -/

/-- Batch `b`'s projected keys and its `x`, as the caches hold them. -/
def keysOf (c : Dev nD) (b : Fin 8) : Vec Ideal S1024x1024 .bf16 := fun j => proj (aY m c) (aW m c) (aB m c) b (j 0) (j 1)
def valsOf (c : Dev nD) (b : Fin 8) : Vec Ideal S1024x1024 .bf16 := fun j => aX m c (ix3 b (j 0) (j 1))

theorem projBlk_blocks (c : Dev nD) (t : Fin cfg0.N) : projBlk (yblk m c t) (wblk m c t) (bblk m c t) = keysOf m c (batchOf t) := by
  funext j
  obtain ⟨d, u, rfl⟩ : ∃ (d u : Fin 1024), j = ix2 d u := ⟨j 0, j 1, eq_ix2 j⟩
  show (∑ e : Fin 1024, yblk m c t (ix3 0 d e) * wblk m c t (ix2 e u)) + bblk m c t (ix1 u)
      = (∑ e : Fin 1024, aY m c (ix3 (batchOf t) d e) * aW m c (ix2 e u)) + aB m c (ix1 u)
  rw [bblk_apply]
  refine congrArg (· + aB m c (ix1 u)) (Finset.sum_congr rfl fun e _ => ?_)
  rw [yblk_apply, wblk_apply]

theorem xBlk_block (c : Dev nD) (t : Fin cfg0.N) : xBlk (xblk m c t) = valsOf m c (batchOf t) := by
  funext j
  obtain ⟨d, u, rfl⟩ : ∃ (d u : Fin 1024), j = ix2 d u := ⟨j 0, j 1, eq_ix2 j⟩
  exact xblk_apply m c t d u

/-- After the first point of a batch the caches hold the batch's projected keys and its `x`. -/
theorem carry_even (c : Dev nD) (t : Fin cfg0.N) (h0 : t.val % 2 = 0) :
    (outsAt0 m c t.val t.isLt).2.1 = keysOf m c (batchOf t) ∧ (outsAt0 m c t.val t.isLt).2.2 = valsOf m c (batchOf t) := by
  rw [outsAt0_A m c t h0]
  dsimp only
  exact ⟨(sout_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans (projBlk_blocks m c t),
    (sout_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)).trans (xBlk_block m c t)⟩

/-- And so they do after either point. -/
theorem carry (c : Dev nD) (t : Fin cfg0.N) :
    (outsAt0 m c t.val t.isLt).2.1 = keysOf m c (batchOf t) ∧ (outsAt0 m c t.val t.isLt).2.2 = valsOf m c (batchOf t) := by
  by_cases h0 : t.val % 2 = 0
  · exact carry_even m c t h0
  · have hlt := lt16 t
    have hN' : cfg0.N = 16 := hN
    have hb : batchOf (⟨t.val - 1, pred_lt t⟩ : Fin cfg0.N) = batchOf t := Fin.ext (by show (t.val - 1) / 2 = t.val / 2; omega)
    have hp := carry_even m c (⟨t.val - 1, pred_lt t⟩ : Fin cfg0.N) (by show (t.val - 1) % 2 = 0; omega)
    rw [hb] at hp
    rw [outsAt0_B m c t h0]
    dsimp only
    unfold sout0_B_0 sout0_B_1
    exact hp

end Cert.Attn.Ker

end
-- ==== Proof.KerFinal.lean ====
/-
  The result array.  Every point writes back one output block: the attention of its 512 query rows against its
  batch's projected keys and values, whichever of the batch's two points it is.  Read at an index that block is the
  attention output (multiplying form) of the argument arrays at the array index the block's element sits at; the 16
  blocks tile the array, so the array ends holding that output.
-/
import proofs.«408106_j51926154608748_3_alg».proof.Proof.KerCarry

set_option maxRecDepth 16384

noncomputable section

namespace Cert.Attn.Ker

open Cert.KernelIdeal Cert.KernelIdeal.Gen Cert.KernelIdeal.Value
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The tile a point computes, from its batch's caches and its mask block. -/
abbrev tileOf (c : Dev nD) (t : Fin cfg0.N) : Vec Ideal S1x512x1024 .f32 :=
  k0_pay3 (F := Ideal) (qRows (512 * (grid0.coords t 1).val) (tile_le (grid0.coords t)) (valsOf m c (batchOf t)))
    (keysOf m c (batchOf t)) (mblk m c t) (valsOf m c (batchOf t))

/-- What either point of a batch leaves in the output's staging buffer is that tile. -/
theorem out_point (c : Dev nD) (t : Fin cfg0.N) : (outsAt0 m c t.val t.isLt).1 = tileOf m c t := by
  by_cases h0 : t.val % 2 = 0
  · rw [outsAt0_A m c t h0]
    dsimp only
    rw [out_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)]
    exact pay3_congr (congrArg _ (xBlk_block m c t)) (projBlk_blocks m c t) rfl (xBlk_block m c t)
  · have hlt := lt16 t
    have hN' : cfg0.N = 16 := hN
    have hb : batchOf (⟨t.val - 1, pred_lt t⟩ : Fin cfg0.N) = batchOf t := Fin.ext (by show (t.val - 1) / 2 = t.val / 2; omega)
    have hp := carry m c (⟨t.val - 1, pred_lt t⟩ : Fin cfg0.N)
    rw [hb] at hp
    rw [outsAt0_B m c t h0]
    dsimp only
    refine (out_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ (iblk m c 0 t) (iblk m c 1 t) (iblk m c 2 t) (iblk m c 3 t) (iblk m c 4 t) _ _).trans ?_
    exact pay3_congr (congrArg _ hp.2) hp.1 rfl hp.2

theorem rowScore_congr {q q' : Fin 1024 → EReal} {P P' : Fin 1024 → Fin 1024 → EReal} {mr mr' : Fin 1024 → EReal}
    (h1 : q = q') (h2 : P = P') (h3 : mr = mr') : rowScore q P mr = rowScore q' P' mr' := by subst h1 h2 h3; rfl
theorem rowOutMul_congr {a a' : Fin 1024 → EReal} {X X' : Fin 1024 → Fin 1024 → EReal} (h1 : a = a') (h2 : X = X') (d : Fin 1024) :
    rowOutMul a X d = rowOutMul a' X' d := by subst h1 h2; rfl

/-- The tile at row `r`, column `d`, is the attention output of the arrays at the batch, the tile's row, the column. -/
theorem tile_value (c : Dev nD) (t : Fin cfg0.N) (r : Fin 512) (d : Fin 1024) :
    tileOf m c t (ix3 0 r d) = outK m c (ix3 (batchOf t) ⟨512 * (t.val % 2) + r.val, row_lt t r⟩ d) := by
  have hg : (grid0.coords t 1).val = t.val % 2 := (idx_facts t).2.2.2.2.2.2.2.2.2.2.2.2.2.2.2
  refine (pay3_apply _ _ _ _ r d).trans ?_
  show _ = rowOutMul (score (aX m c) (aY m c) (aM m c) (aW m c) (aB m c) (batchOf t) ⟨512 * (t.val % 2) + r.val, row_lt t r⟩)
      (fun u d => aX m c (ix3 (batchOf t) u d)) d
  refine rowOutMul_congr (rowScore_congr ?_ rfl ?_) rfl d
  · funext e
    show aX m c (ix3 (batchOf t) ⟨512 * (grid0.coords t 1).val + r.val, _⟩ e) = aX m c (ix3 (batchOf t) ⟨512 * (t.val % 2) + r.val, _⟩ e)
    exact congrArg (fun z => aX m c (ix3 (batchOf t) z e)) (Fin.ext (by show 512 * (grid0.coords t 1).val + r.val = 512 * (t.val % 2) + r.val; rw [hg]))
  · funext u
    exact mblk_apply m c t r u

/-- WHAT POINT `t` WRITES BACK is block `t` of the attention output of the argument arrays. -/
theorem flushed_eq (c : Dev nD) (t : Fin cfg0.N) :
    (dats m 0 c).flushed 5 t = ((cfg0.win 5).blk t).view.read (Elt Ideal) (outK m c) := by
  rw [flushed5 m c t, out_point m c t]
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  show tileOf m c t (ix3 0 r d) = outK m c (((cfg0.win 5).blk t).view.emb (ix3 0 r d))
  rw [tile_value m c t r d]
  obtain ⟨-, -, -, -, -, -, -, -, -, -, -, -, e0, e1, e2, -⟩ := idx_facts t
  refine congrArg (outK m c) (funext fun a => Fin.ext ?_)
  match a with
  | ⟨0, _⟩ => show t.val / 2 = win0_5.index t (0 : Fin 3) * 1 + 1 * 0; omega
  | ⟨1, _⟩ => show 512 * (t.val % 2) + r.val = win0_5.index t (1 : Fin 3) * 512 + 1 * r.val; omega
  | ⟨2, _⟩ => show d.val = win0_5.index t (2 : Fin 3) * 1024 + 1 * d.val; omega

/-- An index of the array is in point `t`'s block iff each coordinate is in the block's range on its axis. -/
theorem mem_blk5 (t : Fin cfg0.N) (i : S8x1024x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v0).slice (win0_5.rect t)).set ↔ _
  rw [View.set_slice_whole, Rect.mem_set_unit]
  exact Iff.rfl

/-- THE ARRAY after the run: the blocks of the 16 points tile it (batch `i 0`, row tile `i 1 / 512`). -/
theorem final (c : Dev nD) : (dats m 0 c).arrAt 5 cfg0.N = outK m c :=
  (dats m 0 c).arrAt_eq_of_cover 5 (outK m c) (fun t _ => flushed_eq m c t) fun i => by
    have h0 : (i 0).val < 8 := (i 0).isLt
    have h1 : (i 1).val < 1024 := (i 1).isLt
    have h2 : (i 2).val < 1024 := (i 2).isLt
    have hN' : cfg0.N = 16 := hN
    refine ⟨⟨2 * (i 0).val + (i 1).val / 512, by rw [hN']; omega⟩, flush0_5 _, ?_⟩
    rw [mem_blk5]
    obtain ⟨-, -, -, -, -, -, -, -, -, -, -, -, e0, e1, e2, -⟩ := idx_facts (⟨2 * (i 0).val + (i 1).val / 512, by rw [hN']; omega⟩ : Fin cfg0.N)
    intro a
    match a with
    | ⟨0, _⟩ =>
      show win0_5.index _ (0 : Fin 3) * 1 ≤ (i 0).val ∧ (i 0).val < win0_5.index _ (0 : Fin 3) * 1 + 1
      rw [e0]; show (2 * (i 0).val + (i 1).val / 512) / 2 * 1 ≤ (i 0).val ∧ (i 0).val < (2 * (i 0).val + (i 1).val / 512) / 2 * 1 + 1; omega
    | ⟨1, _⟩ =>
      show win0_5.index _ (1 : Fin 3) * 512 ≤ (i 1).val ∧ (i 1).val < win0_5.index _ (1 : Fin 3) * 512 + 512
      rw [e1]; show (2 * (i 0).val + (i 1).val / 512) % 2 * 512 ≤ (i 1).val ∧ (i 1).val < (2 * (i 0).val + (i 1).val / 512) % 2 * 512 + 512; omega
    | ⟨2, _⟩ =>
      show win0_5.index _ (2 : Fin 3) * 1024 ≤ (i 2).val ∧ (i 2).val < win0_5.index _ (2 : Fin 3) * 1024 + 1024
      rw [e2]; omega

/-- The run, read: the result array at the attention output of the argument arrays, the arguments unchanged. -/
theorem run : θ_run defs (onTc (τ := τ) (main (F := Ideal))) ⟨m, fun _ => 0, ρ⟩ fun r => ∀ c : Dev nD,
      r.2.mem ((c : Thread nD τ).loc main_v0) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Attn.Ker

end
-- ==== Proof.RefValue.lean ====
/-
  The reference, stage by stage at an index, is the dividing form of the attention output: its two batched
  products and its projection are the sums of `proj`, `score` and the output; its softmax takes the row's maximum as
  a fold of `max` from `-∞` (and once more the maximum with `-∞`, which changes nothing), the exponentials of the
  differences, their sum from zero, and the quotient.
-/
import proofs.«408106_j51926154608748_3_alg».proof.Proof.Gen.ReferenceIdeal.Read
import proofs.«408106_j51926154608748_3_alg».proof.Proof.AttnSpec
import Idealize.ShloMosaic.PureOps.Ideal.Laws
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx

section Stages

variable (x0 x1 x2 : (⟨S8x1024x1024, .f32⟩ : BufTy).Contents (Elt Ideal))
  (x3 : (⟨S1024x1024, .f32⟩ : BufTy).Contents (Elt Ideal)) (x4 : (⟨S1024, .f32⟩ : BufTy).Contents (Elt Ideal))

/-- The first product's left operand is read at (b, d, e) … -/
private theorem lidx_v0 (b : Fin 8) (d t e : Fin 1024) : lidx_main_v0 (ix3 b d t) e = ix3 b d e :=
  funext fun a => Fin.ext (by match a with | ⟨0, _⟩ => rfl | ⟨1, _⟩ => rfl | ⟨2, _⟩ => rfl)
/-- … and its right operand at (e, t). -/
private theorem ridx_v0 (b : Fin 8) (d t e : Fin 1024) : ridx_main_v0 (ix3 b d t) e = ix2 e t :=
  funext fun a => Fin.ext (by match a with | ⟨0, _⟩ => rfl | ⟨1, _⟩ => rfl)
/-- The bias, broadcast twice, is read at t. -/
private theorem idx_v1_v2 (b : Fin 8) (d t : Fin 1024) : idx_main_v1 (idx_main_v2 (ix3 b d t)) = ix1 t :=
  funext fun a => Fin.ext (by match a with | ⟨0, _⟩ => rfl)

/-- The projected keys. -/
private theorem v3_ix3 (b : Fin 8) (d t : Fin 1024) :
    val_main_v3 (F := Ideal) x1 x3 x4 (ix3 b d t) = Cert.Attn.proj x1 x3 x4 b d t := by
  rw [val_main_v3_apply, val_main_v0_apply, val_main_v2_apply, val_main_v1_apply, idx_v1_v2]
  simp only [Ideal.addf_def, lidx_v0, ridx_v0]
  rfl

/-- The second product's left operand is read at (b, s, d) … -/
private theorem lidx_v4 (b : Fin 8) (s t d : Fin 1024) : lidx_main_v4 (ix3 b s t) d = ix3 b s d :=
  funext fun a => Fin.ext (by match a with | ⟨0, _⟩ => rfl | ⟨1, _⟩ => rfl | ⟨2, _⟩ => rfl)
/-- … and its right operand at (b, d, t). -/
private theorem ridx_v4 (b : Fin 8) (s t d : Fin 1024) : ridx_main_v4 (ix3 b s t) d = ix3 b d t :=
  funext fun a => Fin.ext (by match a with | ⟨0, _⟩ => rfl | ⟨1, _⟩ => rfl | ⟨2, _⟩ => rfl)

/-- The scores: the product of the queries with the projected keys, plus the mask times its factor. -/
private theorem v7_ix3 (b : Fin 8) (s t : Fin 1024) :
    val_main_v7 (F := Ideal) x0 x1 x2 x3 x4 (ix3 b s t) = Cert.Attn.score x0 x1 x2 x3 x4 b s t := by
  rw [val_main_v7_apply, val_main_v4_apply, val_main_v6_apply, val_main_v5_apply, val_main_cst_apply]
  simp only [Ideal.addf_def, Ideal.mulf_def, Ideal.ofBits_def, lidx_v4, ridx_v4, v3_ix3]
  rfl

/-- The row (b, s) with its coordinate t put back is (b, s, t). -/
private theorem lift_ix2 (h : S8x1024x1024.Reduces [2] S8x1024) (b : Fin 8) (s : Fin 1024)
    (k : Fin (S8x1024x1024.size 2)) : h.lift (ix2 b s) k = ix3 b s (⟨k.val, k.isLt⟩ : Fin 1024) := by
  funext c; apply Fin.ext
  match c with
  | ⟨0, _⟩ => rfl
  | ⟨1, _⟩ => rfl
  | ⟨2, _⟩ => rfl

/-- The reduce with a maximum body from -∞ over the last axis, at (b, s), is the row's maximum. -/
private theorem v8_ix2 (b : Fin 8) (s : Fin 1024) :
    val_main_v8 (F := Ideal) x0 x1 x2 x3 x4 (ix2 b s) = Cert.Attn.rowMax (Cert.Attn.score x0 x1 x2 x3 x4 b s) := by
  unfold val_main_v8
  generalize hy : val_main_v7 (F := Ideal) x0 x1 x2 x3 x4 = y
  have h : S8x1024x1024.Reduces [2] S8x1024 := by decide
  refine (Host.reduce_eq_fold_single (α := Ideal .f32) FloatOps.maximumf y _ reducesTo_S8x1024x1024_S8x1024_d2 h h_S_ (ix2 b s)).trans ?_
  have hf : (y ∘ h.lift (ix2 b s)) = fun t : Fin 1024 => Cert.Attn.score x0 x1 x2 x3 x4 b s t :=
    funext fun k => by
      show y (h.lift (ix2 b s) k) = _
      rw [lift_ix2 h b s k, ← hy, v7_ix3]
      rfl
  unfold Cert.Attn.rowMax Cert.Attn.negInf
  exact congrArg (fun f => Finset.fold max (Ideal.ofBits .f32 0xFF800000#32) f (Finset.univ : Finset (Fin 1024))) hf

/-- Once more the maximum with -∞ changes nothing: the fold from -∞ is already above it. -/
private theorem v10_ix2 (b : Fin 8) (s : Fin 1024) :
    val_main_v10 (F := Ideal) x0 x1 x2 x3 x4 (ix2 b s) = Cert.Attn.rowMax (Cert.Attn.score x0 x1 x2 x3 x4 b s) := by
  rw [val_main_v10_apply, val_main_v9_apply, val_main_cst_1_apply, v8_ix2]
  simp only [Ideal.maximumf_def, Ideal.ofBits_def]
  unfold Cert.Attn.rowMax Cert.Attn.negInf
  exact max_eq_right ((Finset.le_fold_max _).mpr (Or.inl le_rfl))

/-- The maximum, broadcast back over the row, is read at (b, s). -/
private theorem idx_v11_v12 (b : Fin 8) (s t : Fin 1024) : idx_main_v11 (idx_main_v12 (ix3 b s t)) = ix2 b s :=
  funext fun a => Fin.ext (by match a with | ⟨0, _⟩ => rfl | ⟨1, _⟩ => rfl)

/-- The weights: the exponential of the score less the row's maximum. -/
private theorem v14_ix3 (b : Fin 8) (s t : Fin 1024) :
    val_main_v14 (F := Ideal) x0 x1 x2 x3 x4 (ix3 b s t) = Cert.Attn.rowW (Cert.Attn.score x0 x1 x2 x3 x4 b s) t := by
  rw [val_main_v14_apply, val_main_v13_apply, val_main_v12_apply, val_main_v11_apply, idx_v11_v12, v10_ix2, v7_ix3]
  simp only [Ideal.hostUnary_exp_def, Ideal.subf_def]
  rfl

/-- The sum's operand is read at (b, s, t). -/
private theorem idx_v15 (b : Fin 8) (s t : Fin 1024) : idx_main_v15 (ix2 b s) t = ix3 b s t :=
  funext fun a => Fin.ext (by match a with | ⟨0, _⟩ => rfl | ⟨1, _⟩ => rfl | ⟨2, _⟩ => rfl)

/-- The weights' sum, from zero. -/
private theorem v15_ix2 (b : Fin 8) (s : Fin 1024) :
    val_main_v15 (F := Ideal) x0 x1 x2 x3 x4 (ix2 b s) = Cert.Attn.rowDen (Cert.Attn.score x0 x1 x2 x3 x4 b s) := by
  rw [val_main_v15_apply, val_main_cst_2_apply]
  simp only [Ideal.ofBits_def, Ideal.ofBits_zero_f32, zero_add, idx_v15, v14_ix3]
  rfl

/-- The sum, broadcast back over the row, is read at (b, s). -/
private theorem idx_v16_v17 (b : Fin 8) (s t : Fin 1024) : idx_main_v16 (idx_main_v17 (ix3 b s t)) = ix2 b s :=
  funext fun a => Fin.ext (by match a with | ⟨0, _⟩ => rfl | ⟨1, _⟩ => rfl)

/-- The normalised weights: each weight divided by the row's sum. -/
private theorem v18_ix3 (b : Fin 8) (s t : Fin 1024) :
    val_main_v18 (F := Ideal) x0 x1 x2 x3 x4 (ix3 b s t)
      = Ideal.div (Cert.Attn.rowW (Cert.Attn.score x0 x1 x2 x3 x4 b s) t) (Cert.Attn.rowDen (Cert.Attn.score x0 x1 x2 x3 x4 b s)) := by
  rw [val_main_v18_apply, val_main_v17_apply, val_main_v16_apply, idx_v16_v17, v15_ix2, v14_ix3]
  simp only [Ideal.hostDivf_def]

/-- The last product's left operand is read at (b, s, t) … -/
private theorem lidx_v19 (b : Fin 8) (s d t : Fin 1024) : lidx_main_v19 (ix3 b s d) t = ix3 b s t :=
  funext fun a => Fin.ext (by match a with | ⟨0, _⟩ => rfl | ⟨1, _⟩ => rfl | ⟨2, _⟩ => rfl)
/-- … and its right operand at (b, t, d). -/
private theorem ridx_v19 (b : Fin 8) (s d t : Fin 1024) : ridx_main_v19 (ix3 b s d) t = ix3 b t d :=
  funext fun a => Fin.ext (by match a with | ⟨0, _⟩ => rfl | ⟨1, _⟩ => rfl | ⟨2, _⟩ => rfl)

/-- The output: the normalised weights against the values. -/
private theorem v19_ix3 (b : Fin 8) (s d : Fin 1024) :
    val_main_v19 (F := Ideal) x0 x1 x2 x3 x4 (ix3 b s d) = Cert.Attn.attnDiv x0 x1 x2 x3 x4 b s d := by
  rw [val_main_v19_apply]
  simp only [lidx_v19, ridx_v19, v18_ix3]
  rfl

end Stages

/-- The reference's result, as the generated read-back names it, is the attention output in its dividing form. -/
theorem val_eq_outDiv (x0 x1 x2 : (⟨S8x1024x1024, .f32⟩ : BufTy).Contents (Elt Ideal))
    (x3 : (⟨S1024x1024, .f32⟩ : BufTy).Contents (Elt Ideal)) (x4 : (⟨S1024, .f32⟩ : BufTy).Contents (Elt Ideal)) :
    val_main_v19 (F := Ideal) x0 x1 x2 x3 x4 = Cert.Attn.outDiv x0 x1 x2 x3 x4 := by
  funext i
  obtain ⟨b, s, d, rfl⟩ : ∃ b s d, i = ix3 b s d := ⟨i 0, i 1, i 2, eq_ix3 i⟩
  rw [v19_ix3, Cert.Attn.outDiv_ix3]

end Cert.Attn.Ref

end
-- ==== Proof.SoftmaxLaw.lean ====
/-
  Why multiplying a softmax weight by the reciprocal of the weights' sum is dividing it by that sum, on the
  extended reals: it is so whenever the sum is not zero, and for a row of REAL scores the sum is positive — the
  row's maximum `m` is then real, every weight `exp (a t - m)` is a non-negative real, and each is positive.
  From this the two forms of the attention output agree on arrays of real entries.
-/
import proofs.«408106_j51926154608748_3_alg».proof.Proof.AttnSpec

noncomputable section

namespace Cert.Attn

open Idealize.ShloMosaic Idealize.ShloMosaic.ValueIdx

/-! ## Real entries are closed under the arithmetic -/

theorem IsFin.add {u v : EReal} (hu : IsFin u) (hv : IsFin v) : IsFin (u + v) := by
  obtain ⟨a, rfl⟩ := hu
  obtain ⟨b, rfl⟩ := hv
  exact ⟨a + b, (EReal.coe_add a b).symm⟩
theorem IsFin.mul {u v : EReal} (hu : IsFin u) (hv : IsFin v) : IsFin (u * v) := by
  obtain ⟨a, rfl⟩ := hu
  obtain ⟨b, rfl⟩ := hv
  exact ⟨a * b, (EReal.coe_mul a b).symm⟩
theorem IsFin.sub {u v : EReal} (hu : IsFin u) (hv : IsFin v) : IsFin (u - v) := by
  obtain ⟨a, rfl⟩ := hu
  obtain ⟨b, rfl⟩ := hv
  exact ⟨a - b, (EReal.coe_sub a b).symm⟩
theorem IsFin.sum {ι : Type*} (s : Finset ι) (f : ι → EReal) (h : ∀ i ∈ s, IsFin (f i)) : IsFin (∑ i ∈ s, f i) := by
  classical
  induction s using Finset.induction_on with
  | empty => exact ⟨0, by simp⟩
  | insert a s ha ih =>
    rw [Finset.sum_insert ha]
    exact IsFin.add (h a (Finset.mem_insert_self a s)) (ih (fun i hi => h i (Finset.mem_insert_of_mem hi)))

/-- The mask's factor is a real number; the maximum starts from `-∞`. -/
theorem negBig_isFin : IsFin negBig := by
  -- sign bit 1, exponent field 156, fraction field 7236392:
  -- the value is -(2^23 + 7236392) · 2^(156 - 127 - 23) = -(15625000 · 2^6) = -10^9
  refine ⟨-(15625000 * 2 ^ 6), ?_⟩
  simp [negBig, Ideal.ofBits, Ideal.ieee]
theorem negInf_eq_bot : negInf = ⊥ := by
  simp [negInf, Ideal.ofBits, Ideal.ieee]

/-- The maximum of a row of real scores is real: it is below `⊤` since every entry and the starting value are,
    and it is above `⊥` since it is at least the row's first entry. -/
private theorem rowMax_isFin (a : Fin 1024 → EReal) (ha : ∀ t, IsFin (a t)) : IsFin (rowMax a) := by
  have hlt : rowMax a < ⊤ := by
    unfold rowMax
    rw [Finset.fold_max_lt]
    refine ⟨by rw [negInf_eq_bot]; exact bot_lt_top, fun t _ => ?_⟩
    obtain ⟨r, hr⟩ := ha t
    rw [hr]; exact EReal.coe_lt_top r
  have hgt : ⊥ < rowMax a := by
    obtain ⟨r, hr⟩ := ha 0
    have hle : a 0 ≤ rowMax a := by
      unfold rowMax
      rw [Finset.le_fold_max]
      exact Or.inr ⟨0, Finset.mem_univ 0, le_rfl⟩
    refine lt_of_lt_of_le ?_ hle
    rw [hr]; exact EReal.bot_lt_coe r
  exact ⟨(rowMax a).toReal, (EReal.coe_toReal hlt.ne hgt.ne').symm⟩

/-- Each weight of a row of real scores is a positive real. -/
private theorem rowW_pos (a : Fin 1024 → EReal) (ha : ∀ t, IsFin (a t)) (t : Fin 1024) :
    ∃ w : ℝ, 0 < w ∧ rowW a t = (w : EReal) := by
  obtain ⟨r, hr⟩ := ha t
  obtain ⟨m, hm⟩ := rowMax_isFin a ha
  refine ⟨Real.exp (r - m), Real.exp_pos _, ?_⟩
  unfold rowW
  rw [hr, hm, ← EReal.coe_sub, Ideal.exp_coe]

/-! ## One row -/

/-- For a row of real scores the sum of the weights is not zero. -/
theorem rowDen_ne_zero (a : Fin 1024 → EReal) (ha : ∀ t, IsFin (a t)) : rowDen a ≠ 0 := by
  have hnn : ∀ t ∈ (Finset.univ : Finset (Fin 1024)), 0 ≤ rowW a t := by
    intro t _
    obtain ⟨w, hw, hwt⟩ := rowW_pos a ha t
    rw [hwt]; exact_mod_cast hw.le
  have hle : rowW a 0 ≤ rowDen a := by
    unfold rowDen
    exact Finset.single_le_sum hnn (Finset.mem_univ 0)
  obtain ⟨w, hw, hw0⟩ := rowW_pos a ha 0
  have hpos : (0 : EReal) < rowDen a := by
    refine lt_of_lt_of_le ?_ hle
    rw [hw0]; exact_mod_cast hw
  exact hpos.ne'

/-- So the two forms of the row's output agree. -/
theorem rowOutMul_eq_rowOutDiv (a : Fin 1024 → EReal) (X : Fin 1024 → Fin 1024 → EReal) (d : Fin 1024)
    (ha : ∀ t, IsFin (a t)) : rowOutMul a X d = rowOutDiv a X d := by
  have h := rowDen_ne_zero a ha
  unfold rowOutMul rowOutDiv
  refine Finset.sum_congr rfl (fun t _ => ?_)
  simp only [Ideal.div, if_neg h, one_mul]

/-! ## The arrays -/

section Arrays

variable (x y mk : SB.Idx → EReal) (W : SM.Idx → EReal) (bias : SV.Idx → EReal)

/-- On arrays of real entries every score is real. -/
theorem score_isFin (hx : ∀ i, IsFin (x i)) (hy : ∀ i, IsFin (y i)) (hm : ∀ i, IsFin (mk i)) (hW : ∀ i, IsFin (W i))
    (hb : ∀ i, IsFin (bias i)) (b : Fin 8) (s t : Fin 1024) : IsFin (score x y mk W bias b s t) := by
  unfold score rowScore proj
  refine IsFin.add (IsFin.sum _ _ (fun d _ => IsFin.mul (hx _) ?_)) (IsFin.mul (hm _) negBig_isFin)
  exact IsFin.add (IsFin.sum _ _ (fun e _ => IsFin.mul (hy _) (hW _))) (hb _)

/-- On arrays of real entries the multiplying form of the attention output is the dividing form. -/
theorem outMul_eq_outDiv (hx : ∀ i, IsFin (x i)) (hy : ∀ i, IsFin (y i)) (hm : ∀ i, IsFin (mk i)) (hW : ∀ i, IsFin (W i))
    (hb : ∀ i, IsFin (bias i)) : outMul x y mk W bias = outDiv x y mk W bias := by
  funext i
  unfold outMul outDiv attnMul attnDiv
  exact rowOutMul_eq_rowOutDiv _ _ _ (fun t => score_isFin x y mk W bias hx hy hm hW hb (i 0) (i 1) t)

end Arrays

end Cert.Attn

end
-- ==== Proof.Finite.lean ====
/-
  The precondition says every entry of the five argument arrays has absolute value below `+∞`; on the extended
  reals that makes every entry a real number.
-/
import proofs.«408106_j51926154608748_3_alg».proof.Pre_finite_inputs
import proofs.«408106_j51926154608748_3_alg».proof.Proof.AttnSpec
import Idealize.ShloMosaic.Lib.ReduceAll
import Idealize.ShloMosaic.Lib.IdealHost
import Idealize.ShloMosaic.PureOps.Ideal.Laws

noncomputable section

namespace Cert.Attn

open Idealize.ShloMosaic Idealize.ShloMosaic.ValueIdx

/-- The single-precision pattern of `+∞` is the top of the extended reals. -/
private theorem ofBits_posInf : Ideal.ofBits .f32 0x7F800000#32 = (⊤ : EReal) := by
  simp [Ideal.ofBits, Ideal.ieee]

/-- An extended real whose absolute value `max v (-v)` compares below `+∞` is a real number: at `⊥` and at `⊤`
    the absolute value is `⊤`, which is not below itself. -/
private theorem isFin_of_abs_lt (v : EReal)
    (h : Ideal.cmp .olt (max v (-v)) (Ideal.ofBits .f32 0x7F800000#32) = 1#1) : IsFin v := by
  rw [ofBits_posInf] at h
  induction v using EReal.rec with
  | bot => simp [Ideal.cmp] at h
  | top => simp [Ideal.cmp] at h
  | coe r => exact ⟨r, rfl⟩

/-- The comparison of `|a|` with the broadcast `+∞`, read at one index: where it is one, the entry is real. -/
private theorem isFin_of_cmp {T : Shape} (hb : (⟨0, ![]⟩ : Shape).BroadcastsInDim T ![]) (a : FVec Ideal T .f32) (i : T.Idx)
    (h : cmpf .olt (Host.absf a) (broadcastInDim T ![] hb (constant (F := Ideal) ⟨0, ![]⟩ .f32 0x7F800000#32)) i = 1#1) :
    IsFin (a i) := by
  rw [cmpf_apply, broadcastInDim_scalar_apply] at h
  exact isFin_of_abs_lt (a i) h

/-- An elementwise `and` of two `i1` arrays that is one at an index has both operands one there. -/
private theorem andi_ix_eq_one {s : Shape} (x y : IVec s 1) (i : s.Idx) (h : andi x y i = 1#1) :
    x i = 1#1 ∧ y i = 1#1 :=
  IntOp.andi_eq_one.1 h

/-- Where the precondition's predicate is all ones, every entry of every argument array is real. -/
theorem isFin_of_pre [Cert.Pre_finite_inputs.Facts]
    (a0 a1 a2 : FVec Ideal Cert.Pre_finite_inputs.S8x1024x1024 .f32) (a3 : FVec Ideal Cert.Pre_finite_inputs.S1024x1024 .f32)
    (a4 : FVec Ideal Cert.Pre_finite_inputs.S1024 .f32)
    (h : Cert.Pre_finite_inputs.fn (F := Ideal) a0 a1 a2 a3 a4 = fun _ => 1#1) :
    (∀ i, IsFin (a0 i)) ∧ (∀ i, IsFin (a1 i)) ∧ (∀ i, IsFin (a2 i)) ∧ (∀ i, IsFin (a3 i)) ∧ (∀ i, IsFin (a4 i)) := by
  have h0 := congrFun h ValueIdx.ix0
  dsimp only [Cert.Pre_finite_inputs.fn, Cert.Pre_finite_inputs.fn_part1] at h0
  -- the rank-0 result shape has one index, so each reduction ranges over every entry of its operand
  haveI : Subsingleton Cert.Pre_finite_inputs.S_.Idx := ⟨fun a b => funext fun d => d.elim0⟩
  -- the predicate is the conjunction of five `all`s
  obtain ⟨h0123, e4⟩ := andi_ix_eq_one _ _ _ h0
  obtain ⟨h012, e3⟩ := andi_ix_eq_one _ _ _ h0123
  obtain ⟨h01, e2⟩ := andi_ix_eq_one _ _ _ h012
  obtain ⟨e0, e1⟩ := andi_ix_eq_one _ _ _ h01
  exact ⟨fun i => isFin_of_cmp _ a0 i (Host.reduce_andi_all _ _ _ _ _ e0 i),
    fun i => isFin_of_cmp _ a1 i (Host.reduce_andi_all _ _ _ _ _ e1 i),
    fun i => isFin_of_cmp _ a2 i (Host.reduce_andi_all _ _ _ _ _ e2 i),
    fun i => isFin_of_cmp _ a3 i (Host.reduce_andi_all _ _ _ _ _ e3 i),
    fun i => isFin_of_cmp _ a4 i (Host.reduce_andi_all _ _ _ _ _ e4 i)⟩

end Cert.Attn

end
-- ==== Proof.lean ====
/-
  The kernel is a masked softmax attention, batch by batch:
      py = y · W + bias,   a = x · py + mask · c,   out = softmax(a) · x,
  computed per batch in two grid points of 512 query rows each, the projected keys `py` and the batch's `x` cached
  at the batch's first point; the reference computes the same with whole-array operations.  Over the extended reals
  both are sums and products of the same entries: a change of number format is the identity, a matrix product is the
  plain sum of products, the row maximum and the row sum are the same fold and the same sum.  The one difference is
  that the kernel multiplies each softmax weight by the reciprocal of the weights' sum where the reference divides by
  the sum; the two agree because the sum is not zero, and it is not zero because the inputs are finite: every score
  is then a real number, the row maximum is real, and the weight at any entry is the exponential of a real number.

  frame (word-level kernel, idealized kernel): the generated frame runs.  frame (reference): its generated run with
  the result dropped.  preserves: nothing was rewritten.  algebraic: the kernel's run ends with the result array at
  the attention output in its multiplying form (Proof/KerFinal.lean, from the points' blocks and the caches),
  the reference's run at the dividing form (Proof/RefValue.lean); on finite inputs (Proof/Finite.lean) the two forms are one
  (Proof/SoftmaxLaw.lean).
-/
import proofs.«408106_j51926154608748_3_alg».proof.Defs
import proofs.«408106_j51926154608748_3_alg».proof.Proof.Gen.Kernel
import proofs.«408106_j51926154608748_3_alg».proof.Proof.Gen.Kernel.Skeleton
import proofs.«408106_j51926154608748_3_alg».proof.Proof.Gen.Kernel.Launch
import proofs.«408106_j51926154608748_3_alg».proof.Proof.Gen.Kernel.Points
import proofs.«408106_j51926154608748_3_alg».proof.Proof.Gen.Kernel.Frame
import proofs.«408106_j51926154608748_3_alg».proof.Proof.Gen.KernelIdeal
import proofs.«408106_j51926154608748_3_alg».proof.Proof.Gen.KernelIdeal.Skeleton
import proofs.«408106_j51926154608748_3_alg».proof.Proof.Gen.KernelIdeal.Launch
import proofs.«408106_j51926154608748_3_alg».proof.Proof.Gen.KernelIdeal.Points
import proofs.«408106_j51926154608748_3_alg».proof.Proof.Gen.KernelIdeal.Frame
import proofs.«408106_j51926154608748_3_alg».proof.Proof.Gen.ReferenceIdeal
import proofs.«408106_j51926154608748_3_alg».proof.Proof.Gen.Pre_finite_inputs
import proofs.«408106_j51926154608748_3_alg».proof.Proof.Gen.KernelIdeal.Value
import proofs.«408106_j51926154608748_3_alg».proof.Proof.Gen.ReferenceIdeal.Run
import proofs.«408106_j51926154608748_3_alg».proof.Proof.Gen.ReferenceIdeal.Read
import proofs.«408106_j51926154608748_3_alg».proof.Proof.KerFinal
import proofs.«408106_j51926154608748_3_alg».proof.Proof.RefValue
import proofs.«408106_j51926154608748_3_alg».proof.Proof.SoftmaxLaw
import proofs.«408106_j51926154608748_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the attention output of the arguments in its dividing form: the kernel's
    multiplying form is that form on finite inputs, the reference's stages compose to it. -/
theorem algebraic : Cert.algebraic_KernelIdeal_ReferenceIdeal := by
  intro m ρ m' ρ' hpre hagree
  refine ⟨fun c => Cert.Attn.outDiv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.Attn.Ker.run m ρ)
    obtain ⟨h0, h1, h2, h3, h4⟩ := Cert.Attn.isFin_of_pre _ _ _ _ _ (hpre c)
    exact Cert.Attn.outMul_eq_outDiv _ _ _ _ _ h0 h1 h2 h3 h4
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, Cert.Attn.Ref.val_eq_outDiv, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
